-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x128 : Shape := ⟨2, ![100000, 128]⟩
abbrev S2x3200000 : Shape := ⟨2, ![2, 3200000]⟩
abbrev S32x32 : Shape := ⟨2, ![32, 32]⟩
abbrev S32 : Shape := ⟨1, ![32]⟩
abbrev S128x32 : Shape := ⟨2, ![128, 32]⟩
abbrev S64x32 : Shape := ⟨2, ![64, 32]⟩
abbrev S32x20 : Shape := ⟨2, ![32, 20]⟩
abbrev S20 : Shape := ⟨1, ![20]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S128x32 : S_.BroadcastsInDim S128x32 (![] : Fin 0 → Fin S128x32.rank)
  reducesTo_S128x32_S_d0_1 : S128x32.ReducesTo [0, 1] S_
  bcast_S_S64x32 : S_.BroadcastsInDim S64x32 (![] : Fin 0 → Fin S64x32.rank)
  reducesTo_S64x32_S_d0_1 : S64x32.ReducesTo [0, 1] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg8 : FVec F S32 .f32) (main_arg9 : FVec F S32x20 .f32) (main_arg10 : FVec F S20 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x20 .f32 := Host.absf main_arg9
  let main_cst_14 : FVec F S_ .f32 := constant S_ .f32 0x7F800000#32
  let main_v40 : FVec F S32x20 .f32 := broadcastInDim S32x20 ![] bcast_S_S32x20 main_cst_14
  let main_v41 : IVec S32x20 1 := cmpf .olt main_v39 main_v40
  let main_c_15 : IVec S_ 1 := constantI S_ 1 1#1
  let main_v42 : IVec S_ 1 := (fun x v => Host.reduce IntOp.andi x v reducesTo_S32x20_S_d0_1 h_S_) main_v41 main_c_15
  let main_v43 : IVec S_ 1 := andi main_v38 main_v42
  let main_v44 : FVec F S20 .f32 := Host.absf main_arg10
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  main_v48

def fn_part1 {F : FTy → Type} [FloatOps F] (main_arg5 : FVec F S128x32 .f32) (main_arg6 : FVec F S32 .f32) (main_arg7 : FVec F S64x32 .f32) (main_arg8 : FVec F S32 .f32) (main_arg9 : FVec F S32x20 .f32) (main_arg10 : FVec F S20 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x32 .f32) (main_arg1 : FVec F S100000x128 .f32) (main_arg2 : IVec S2x3200000 32) (main_arg3 : FVec F S32x32 .f32) (main_arg4 : FVec F S32 .f32) (main_arg5 : FVec F S128x32 .f32) (main_arg6 : FVec F S32 .f32) (main_arg7 : FVec F S64x32 .f32) (main_arg8 : FVec F S32 .f32) (main_arg9 : FVec F S32x20 .f32) (main_arg10 : FVec F S20 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S100000x32 : Shape := ⟨2, ![100000, 32]⟩
abbrev S100000x128 : Shape := ⟨2, ![100000, 128]⟩
abbrev S2x3200000 : Shape := ⟨2, ![2, 3200000]⟩
abbrev S32x32 : Shape := ⟨2, ![32, 32]⟩
abbrev S32 : Shape := ⟨1, ![32]⟩
abbrev S128x32 : Shape := ⟨2, ![128, 32]⟩
abbrev S64x32 : Shape := ⟨2, ![64, 32]⟩
abbrev S32x20 : Shape := ⟨2, ![32, 20]⟩
abbrev S20 : Shape := ⟨1, ![20]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S1x32 : Shape := ⟨2, ![1, 32]⟩
abbrev S100000x64 : Shape := ⟨2, ![100000, 64]⟩
abbrev S10000x32 : Shape := ⟨2, ![10000, 32]⟩
abbrev S10000x128 : Shape := ⟨2, ![10000, 128]⟩
abbrev S10000x64 : Shape := ⟨2, ![10000, 64]⟩
abbrev S3200000x32 : Shape := ⟨2, ![3200000, 32]⟩
abbrev S10000x1 : Shape := ⟨2, ![10000, 1]⟩
abbrev S100000x20 : Shape := ⟨2, ![100000, 20]⟩
abbrev S10000x20 : Shape := ⟨2, ![10000, 20]⟩
abbrev S3200000x20 : Shape := ⟨2, ![3200000, 20]⟩
abbrev S1x20 : Shape := ⟨2, ![1, 20]⟩

abbrev nBuf : Space → Nat
  | .hbm => 87
  | .vmem => 38
  | .smem => 0
  | _ => 0

abbrev bufTy : (tb : Table) → Fin (tcTables nBuf tb) → BufTy
  | .hbm, ⟨0, _⟩ => ⟨S100000x32, .f32⟩
  | .hbm, ⟨1, _⟩ => ⟨S100000x128, .f32⟩
  | .hbm, ⟨2, _⟩ => ⟨S2x3200000, .i32⟩
  | .hbm, ⟨3, _⟩ => ⟨S32x32, .f32⟩
  | .hbm, ⟨4, _⟩ => ⟨S32, .f32⟩
  | .hbm, ⟨5, _⟩ => ⟨S128x32, .f32⟩
  | .hbm, ⟨6, _⟩ => ⟨S32, .f32⟩
  | .hbm, ⟨7, _⟩ => ⟨S64x32, .f32⟩
  | .hbm, ⟨8, _⟩ => ⟨S32, .f32⟩
  | .hbm, ⟨9, _⟩ => ⟨S32x20, .f32⟩
  | .hbm, ⟨10, _⟩ => ⟨S20, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .f32⟩
  | .hbm, ⟨16, _⟩ => ⟨S3200000, .f32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000, .f32⟩
  | .hbm, ⟨43, _⟩ => ⟨S3200000, .f32⟩
  | .hbm, ⟨44, _⟩ => ⟨S100000, .f32⟩
  | .hbm, ⟨45, _⟩ => ⟨S100000x1, .f32⟩
  | .hbm, ⟨46, _⟩ => ⟨S1x32, .f32⟩
  | .hbm, ⟨47, _⟩ => ⟨S1x32, .f32⟩
  | .hbm, ⟨48, _⟩ => ⟨S100000x64, .f32⟩
  | .hbm, ⟨49, _⟩ => ⟨S100000x32, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x32, .f32⟩
  | .hbm, ⟨59, _⟩ => ⟨S3200000x1, .f32⟩
  | .hbm, ⟨60, _⟩ => ⟨S3200000x32, .f32⟩
  | .hbm, ⟨61, _⟩ => ⟨S3200000x32, .f32⟩
  | .hbm, ⟨62, _⟩ => ⟨S_, .f32⟩
  | .hbm, ⟨63, _⟩ => ⟨S100000x32, .f32⟩
  | .hbm, ⟨64, _⟩ => ⟨S3200000x1, .i32⟩
  | .hbm, ⟨65, _⟩ => ⟨S100000x32, .f32⟩
  | .hbm, ⟨66, _⟩ => ⟨S1x32, .f32⟩
  | .hbm, ⟨67, _⟩ => ⟨S100000x32, .f32⟩
  | .hbm, ⟨68, _⟩ => ⟨S100000x20, .f32⟩
  | .hbm, ⟨69, _⟩ => ⟨S_, .i32⟩
  | .hbm, ⟨70, _⟩ => ⟨S3200000, .i32⟩
  | .hbm, ⟨71, _⟩ => ⟨S3200000, .i1⟩
  | .hbm, ⟨72, _⟩ => ⟨S_, .i32⟩
  | .hbm, ⟨73, _⟩ => ⟨S3200000, .i32⟩
  | .hbm, ⟨74, _⟩ => ⟨S3200000, .i32⟩
  | .hbm, ⟨75, _⟩ => ⟨S3200000, .i32⟩
  | .hbm, ⟨76, _⟩ => ⟨S3200000x1, .i32⟩
  | .hbm, ⟨77, _⟩ => ⟨S3200000x20, .f32⟩
  | .hbm, ⟨78, _⟩ => ⟨S3200000x1, .f32⟩
  | .hbm, ⟨79, _⟩ => ⟨S3200000x20, .f32⟩
  | .hbm, ⟨80, _⟩ => ⟨S3200000x20, .f32⟩
  | .hbm, ⟨81, _⟩ => ⟨S_, .f32⟩
  | .hbm, ⟨82, _⟩ => ⟨S100000x20, .f32⟩
  | .hbm, ⟨83, _⟩ => ⟨S3200000x1, .i32⟩
  | .hbm, ⟨84, _⟩ => ⟨S100000x20, .f32⟩
  | .hbm, ⟨85, _⟩ => ⟨S1x20, .f32⟩
  | .hbm, ⟨86, _⟩ => ⟨S100000x20, .f32⟩
  | .local _ .vmem, ⟨0, _⟩ => ⟨S10000x32, .f32⟩
  | .local _ .vmem, ⟨1, _⟩ => ⟨S10000x32, .f32⟩
  | .local _ .vmem, ⟨2, _⟩ => ⟨S10000x128, .f32⟩
  | .local _ .vmem, ⟨3, _⟩ => ⟨S10000x128, .f32⟩
  | .local _ .vmem, ⟨4, _⟩ => ⟨S32x32, .f32⟩
  | .local _ .vmem, ⟨5, _⟩ => ⟨S1x32, .f32⟩
  | .local _ .vmem, ⟨6, _⟩ => ⟨S128x32, .f32⟩
  | .local _ .vmem, ⟨7, _⟩ => ⟨S1x32, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x1, .f32⟩
  | .local _ .vmem, ⟨20, _⟩ => ⟨S10000x1, .f32⟩
  | .local _ .vmem, ⟨21, _⟩ => ⟨S1x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S32x20, .f32⟩
  | .local _ .vmem, ⟨27, _⟩ => ⟨S10000x20, .f32⟩
  | .local _ .vmem, ⟨28, _⟩ => ⟨S10000x20, .f32⟩
  | .local _ .vmem, ⟨29, _⟩ => ⟨S10000x20, .f32⟩
  | .local _ .vmem, ⟨30, _⟩ => ⟨S10000x20, .f32⟩
  | .local _ .vmem, ⟨31, _⟩ => ⟨S10000x20, .f32⟩
  | .local _ .vmem, ⟨32, _⟩ => ⟨S10000x20, .f32⟩
  | .local _ .vmem, ⟨33, _⟩ => ⟨S10000x1, .f32⟩
  | .local _ .vmem, ⟨34, _⟩ => ⟨S10000x1, .f32⟩
  | .local _ .vmem, ⟨35, _⟩ => ⟨S1x20, .f32⟩
  | .local _ .vmem, ⟨36, _⟩ => ⟨S10000x20, .f32⟩
  | .local _ .vmem, ⟨37, _⟩ => ⟨S10000x20, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x20 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x20 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x20 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x20 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x20 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x20 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S32_S1x32 : S32.ShapeCasts S1x32
  inb_S10000x32_S10000x32_0_0 : ∀ a, (![0, 0] : Fin 2 → Nat) a + S10000x32.size a ≤ S10000x32.size a
  h_S10000x32 : 0 < S10000x32.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  concatenates_S10000x32_S10000x32_S10000x64_d1 : Shape.Concatenates [S10000x32, S10000x32] S10000x64 1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S32x20_S32x20_0_0 : ∀ a, (![0, 0] : Fin 2 → Nat) a + S32x20.size a ≤ S32x20.size a
  h_S32x20 : 0 < S32x20.numel
  inb_S10000x20_S10000x20_0_0 : ∀ a, (![0, 0] : Fin 2 → Nat) a + S10000x20.size a ≤ S10000x20.size a
  h_S10000x20 : 0 < S10000x20.numel
  bcast_S3200000x1_S3200000x20_0_1 : S3200000x1.BroadcastsInDim S3200000x20 (![0, 1] : Fin 2 → Fin S3200000x20.rank)
  bcast_S_S100000x20 : S_.BroadcastsInDim S100000x20 (![] : Fin 0 → Fin S100000x20.rank)
  shapeCasts_S20_S1x20 : S20.ShapeCasts S1x20
  shapeCasts_S10000x20_S10000x20 : S10000x20.ShapeCasts S10000x20
  broadcasts_S10000x1_S10000x20 : S10000x1.Broadcasts S10000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x32_S32x32_S10000x32_1_0_0_1_n_n_wf : DotDims.WF S10000x32 S32x32 S10000x32 [1] [0] [0] [1] [] []
  dot_S10000x128_S128x32_S10000x32_1_0_0_1_n_n_wf : DotDims.WF S10000x128 S128x32 S10000x32 [1] [0] [0] [1] [] []
  dot_S10000x64_S64x32_S10000x32_1_0_0_1_n_n_wf : DotDims.WF S10000x64 S64x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x20_S10000x20_1_0_0_1_n_n_wf : DotDims.WF S10000x32 S32x20 S10000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x32.size a ≤ S100000x32.size a
  hwx2_4 : ∀ i : grid2.Coords, EltTy.bits .f32 = 32 ∨ (Rect.block (s := S100000x32) S10000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x20.size a ≤ S32x20.size a
  hwx3_1 : ∀ i : grid3.Coords, EltTy.bits .f32 = 32 ∨ (Rect.block (s := S32x20) S32x20.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x20.size a ≤ S100000x20.size a
  hwx3_2 : ∀ i : grid3.Coords, EltTy.bits .f32 = 32 ∨ (Rect.block (s := S100000x20) S10000x20.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x20.size a ≤ S100000x20.size a
  hwx4_0 : ∀ i : grid4.Coords, EltTy.bits .f32 = 32 ∨ (Rect.block (s := S100000x20) S10000x20.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x20.size a ≤ S100000x20.size a
  hwx4_1 : ∀ i : grid4.Coords, EltTy.bits .f32 = 32 ∨ (Rect.block (s := S100000x20) S10000x20.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x20.size a ≤ S1x20.size a
  hwx4_3 : ∀ i : grid4.Coords, EltTy.bits .f32 = 32 ∨ (Rect.block (s := S1x20) S1x20.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x20.size a ≤ S100000x20.size a
  hwx4_4 : ∀ i : grid4.Coords, EltTy.bits .f32 = 32 ∨ (Rect.block (s := S100000x20) S10000x20.size (cc4_transform_4 i) (hinb4_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x20_S10000x20_1_0_0_1_n_n : DotDims S10000x32 S32x20 S10000x20 where
  lhsContracting := [1]
  rhsContracting := [0]
  lhsNonContracting := [0]
  rhsNonContracting := [1]
  lhsBatch := []
  rhsBatch := []
  wf := dot_S10000x32_S32x20_S10000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S10000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S32x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x20.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x20.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S10000x20.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x20.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S10000x20.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x32 : Shape := ⟨2, ![100000, 32]⟩
abbrev S100000x128 : Shape := ⟨2, ![100000, 128]⟩
abbrev S2x3200000 : Shape := ⟨2, ![2, 3200000]⟩
abbrev S32x32 : Shape := ⟨2, ![32, 32]⟩
abbrev S32 : Shape := ⟨1, ![32]⟩
abbrev S128x32 : Shape := ⟨2, ![128, 32]⟩
abbrev S64x32 : Shape := ⟨2, ![64, 32]⟩
abbrev S32x20 : Shape := ⟨2, ![32, 20]⟩
abbrev S20 : Shape := ⟨1, ![20]⟩
abbrev S1x3200000 : Shape := ⟨2, ![1, 3200000]⟩
abbrev S3200000 : Shape := ⟨1, ![3200000]⟩
abbrev S1x32 : Shape := ⟨2, ![1, 32]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S100000x20 : Shape := ⟨2, ![100000, 20]⟩
abbrev S3200000x20 : Shape := ⟨2, ![3200000, 20]⟩
abbrev S1x20 : Shape := ⟨2, ![1, 20]⟩

abbrev nBuf : Space → Nat
  | .hbm => 138
  | .vmem => 0
  | .smem => 0
  | _ => 0

abbrev hbmTy0_0 (i : Nat) : BufTy := match i % 128 with
  | 0 => ⟨S100000x32, .f32⟩
  | 1 => ⟨S100000x128, .f32⟩
  | 2 => ⟨S2x3200000, .i32⟩
  | 3 => ⟨S32x32, .f32⟩
  | 4 => ⟨S32, .f32⟩
  | 5 => ⟨S128x32, .f32⟩
  | 6 => ⟨S32, .f32⟩
  | 7 => ⟨S64x32, .f32⟩
  | 8 => ⟨S32, .f32⟩
  | 9 => ⟨S32x20, .f32⟩
  | 10 => ⟨S20, .f32⟩
  | 11 => ⟨S1x3200000, .i32⟩
  | 12 => ⟨S3200000, .i32⟩
  | 13 => ⟨S1x3200000, .i32⟩
  | 14 => ⟨S3200000, .i32⟩
  | 15 => ⟨S100000x32, .f32⟩
  | 16 => ⟨S1x32, .f32⟩
  | 17 => ⟨S100000x32, .f32⟩
  | 18 => ⟨S100000x32, .f32⟩
  | 19 => ⟨S100000x32, .f32⟩
  | 20 => ⟨S1x32, .f32⟩
  | 21 => ⟨S100000x32, .f32⟩
  | 22 => ⟨S100000x32, .f32⟩
  | 23 => ⟨S100000x64, .f32⟩
  | 24 => ⟨S_, .f32⟩
  | 25 => ⟨S100000x64, .f32⟩
  | 26 => ⟨S100000x64, .f32⟩
  | 27 => ⟨S100000x32, .f32⟩
  | 28 => ⟨S_, .f32⟩
  | 29 => ⟨S3200000, .f32⟩
  | 30 => ⟨S_, .f32⟩
  | 31 => ⟨S100000, .f32⟩
  | 32 => ⟨S3200000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000, .f32⟩
  | 56 => ⟨S3200000, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S3200000x32, .f32⟩
  | 66 => ⟨S3200000x1, .f32⟩
  | 67 => ⟨S3200000x32, .f32⟩
  | 68 => ⟨S3200000x32, .f32⟩
  | 69 => ⟨S_, .f32⟩
  | 70 => ⟨S100000x32, .f32⟩
  | 71 => ⟨S3200000x1, .i32⟩
  | 72 => ⟨S100000x32, .f32⟩
  | 73 => ⟨S100000, .f32⟩
  | 74 => ⟨S100000x1, .f32⟩
  | 75 => ⟨S100000x32, .f32⟩
  | 76 => ⟨S100000x32, .f32⟩
  | 77 => ⟨S100000x32, .f32⟩
  | 78 => ⟨S1x32, .f32⟩
  | 79 => ⟨S100000x32, .f32⟩
  | 80 => ⟨S100000x32, .f32⟩
  | 81 => ⟨S_, .f32⟩
  | 82 => ⟨S100000x32, .f32⟩
  | 83 => ⟨S100000x32, .f32⟩
  | 84 => ⟨S100000x20, .f32⟩
  | 85 => ⟨S_, .f32⟩
  | 86 => ⟨S3200000, .f32⟩
  | 87 => ⟨S_, .f32⟩
  | 88 => ⟨S100000, .f32⟩
  | 89 => ⟨S3200000x1, .i32⟩
  | 90 => ⟨S100000, .f32⟩
  | 91 => ⟨S_, .f32⟩
  | 92 => ⟨S100000, .f32⟩
  | 93 => ⟨S100000, .f32⟩
  | 94 => ⟨S100000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S_, .i32⟩
  | 105 => ⟨S3200000, .i32⟩
  | 106 => ⟨S3200000, .i1⟩
  | 107 => ⟨S_, .i32⟩
  | 108 => ⟨S3200000, .i32⟩
  | 109 => ⟨S3200000, .i32⟩
  | 110 => ⟨S3200000, .i32⟩
  | 111 => ⟨S3200000x1, .i32⟩
  | 112 => ⟨S3200000, .f32⟩
  | 113 => ⟨S3200000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x20, .f32⟩
  | 123 => ⟨S3200000x1, .f32⟩
  | 124 => ⟨S3200000x20, .f32⟩
  | 125 => ⟨S3200000x20, .f32⟩
  | 126 => ⟨S_, .f32⟩
  | 127 => ⟨S100000x20, .f32⟩
  | _ => ⟨S100000x32, .f32⟩

abbrev hbmTy0_1 (i : Nat) : BufTy := match i % 128 with
  | 0 => ⟨S3200000x1, .i32⟩
  | 1 => ⟨S100000x20, .f32⟩
  | 2 => ⟨S100000, .f32⟩
  | 3 => ⟨S100000x1, .f32⟩
  | 4 => ⟨S100000x20, .f32⟩
  | 5 => ⟨S100000x20, .f32⟩
  | 6 => ⟨S100000x20, .f32⟩
  | 7 => ⟨S1x20, .f32⟩
  | 8 => ⟨S100000x20, .f32⟩
  | 9 => ⟨S100000x20, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_11 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_c_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_v82 : Ref sig .tc := ⟨.hbm, 115, rfl⟩
abbrev main_v83 : Ref sig .tc := ⟨.hbm, 116, rfl⟩
abbrev main_c_16 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_17 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  bcast_S_S100000x64 : S_.BroadcastsInDim S100000x64 (![] : Fin 0 → Fin S100000x64.rank)
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S3200000x1_S3200000x20_0_1 : S3200000x1.BroadcastsInDim S3200000x20 (![0, 1] : Fin 2 → Fin S3200000x20.rank)
  bcast_S_S100000x20 : S_.BroadcastsInDim S100000x20 (![] : Fin 0 → Fin S100000x20.rank)
  bcast_S100000x1_S100000x20_0_1 : S100000x1.BroadcastsInDim S100000x20 (![0, 1] : Fin 2 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  dot_S100000x32_S32x32_S100000x32_1_0_0_1_n_n_wf : DotDims.WF S100000x32 S32x32 S100000x32 [1] [0] [0] [1] [] []
  dot_S100000x128_S128x32_S100000x32_1_0_0_1_n_n_wf : DotDims.WF S100000x128 S128x32 S100000x32 [1] [0] [0] [1] [] []
  dot_S100000x64_S64x32_S100000x32_1_0_0_1_n_n_wf : DotDims.WF S100000x64 S64x32 S100000x32 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x20_S100000x20_1_0_0_1_n_n_wf : DotDims.WF S100000x32 S32x20 S100000x20 [1] [0] [0] [1] [] []
  gather_S100000x20_S3200000x1_S3200000x20_1_0_n_n_0_1_120_wf : GatherDims.WF S100000x20 S3200000x1 S3200000x20 [1] [0] [] [0] [] 1 ![1, 20]
  scatter_S100000x20_S3200000x1_S3200000x20_1_0_0_1_wf : ScatterDims.WF S100000x20 S3200000x1 S3200000x20 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x20_S100000x20_1_0_0_1_n_n : DotDims S100000x32 S32x20 S100000x20 where
  lhsContracting := [1]
  rhsContracting := [0]
  lhsNonContracting := [0]
  rhsNonContracting := [1]
  lhsBatch := []
  rhsBatch := []
  wf := dot_S100000x32_S32x20_S100000x20_1_0_0_1_n_n_wf
def gather_S100000x20_S3200000x1_S3200000x20_1_0_n_n_0_1_120 : GatherDims S100000x20 S3200000x1 S3200000x20 where
  offsetDims := [1]
  collapsedSliceDims := [0]
  operandBatchingDims := []
  startIndicesBatchingDims := []
  startIndexMap := [0]
  indexVectorDim := 1
  sliceSizes := ![1, 20]
  wf := gather_S100000x20_S3200000x1_S3200000x20_1_0_n_n_0_1_120_wf
def scatter_S100000x20_S3200000x1_S3200000x20_1_0_0_1 : ScatterDims S100000x20 S3200000x1 S3200000x20 where
  updateWindowDims := [1]
  insertedWindowDims := [0]
  scatterDimsToOperandDims := [0]
  indexVectorDim := 1
  wf := scatter_S100000x20_S3200000x1_S3200000x20_1_0_0_1_wf

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibSideBySide.lean ====
/-
  Two arrays side by side, read at coordinates.

  Concatenating an `[n, a]` array and an `[n, b]` array along the column axis gives an `[n, c]` array, `c = a + b`, whose
  entry `(p, q)` is the left array's `(p, q)` when `q < a` and the right array's `(p, q - a)` otherwise.
-/
import Idealize.ShloMosaic.Lib.Pipeline.Value
import Idealize.ShloMosaic.Lib.ValueIdx

noncomputable section

namespace Idealize.ShloMosaic.SideBySide

open Idealize.ShloMosaic Idealize.ShloMosaic.ValueIdx

variable {α : Type} {n a b c : Nat}

/-- A column of the left part reads the left array. -/
theorem apply_left (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : q.val < a) :
    concatenate ⟨2, ![n, c]⟩ 1 [⟨⟨2, ![n, a]⟩, A⟩, ⟨⟨2, ![n, b]⟩, B⟩] h (ix2 p q) = A (ix2 p ⟨q.val, hq⟩) :=
  concatenate_pair_apply_left (1 : Fin 2) A B h (ix2 p q) rfl (ix2 p ⟨q.val, hq⟩) (fun ax => by
    match ax with
    | ⟨0, _⟩ => rfl
    | ⟨1, _⟩ => rfl)

/-- A column of the right part reads the right array, the left part's width less. -/
theorem apply_right (A : (⟨2, ![n, a]⟩ : Shape).Idx → α) (B : (⟨2, ![n, b]⟩ : Shape).Idx → α)
    (h : Shape.Concatenates [(⟨2, ![n, a]⟩ : Shape), ⟨2, ![n, b]⟩] ⟨2, ![n, c]⟩ 1) (p : Fin n) (q : Fin c) (hq : a ≤ q.val)
    (hb : q.val - a < b) :
    concatenate ⟨2, ![n, c]⟩ 1 [⟨⟨2, ![n, a]⟩, A⟩, ⟨⟨2, ![n, b]⟩, B⟩] h (ix2 p q) = B (ix2 p ⟨q.val - a, hb⟩) :=
  concatenate_pair_apply_right (1 : Fin 2) A B h (ix2 p q) rfl rfl (ix2 p ⟨q.val - a, hb⟩) (fun ax hax => by
    match ax with
    | ⟨0, _⟩ => rfl
    | ⟨1, _⟩ => exact absurd rfl hax) (by
    show (q.val - a) + a = q.val
    omega)

end Idealize.ShloMosaic.SideBySide

end
-- ==== Proof.Encode.lean ====
/-
  The encoder, read off the launch: region 0 takes, ten row blocks of 10000 at a time, the node features (32 columns) and
  the image embeddings (128 columns), multiplies each by its weight matrix, adds its bias row, sets the two 32-column
  results side by side and clamps at zero. Entry `(p, q)` of the result, for `q < 32`, is
  `max (∑ k, x (p, k) · fw (k, q) + fb q, 0)`, and for `q ≥ 32` the same of the embeddings with column `q - 32`. It depends
  on row `p` of the two inputs only, so block `t` of the result is computed from blocks `t`; the ten blocks tile the array.
-/
import proofs.«105662_j34840774705776_1_alg».proof.Proof.Gen.KernelIdeal.Frame
import proofs.«105662_j34840774705776_1_alg».proof.Proof.LibPlainDot
import proofs.«105662_j34840774705776_1_alg».proof.Proof.LibSideBySide
import Idealize.ShloMosaic.Lib.ValueLayout
import Idealize.ShloMosaic.Lib.Pipeline.Value
import Idealize.ShloMosaic.Lib.ValueIdx

noncomputable section

open scoped BigOperators

namespace Cert.KernelIdeal.Encode

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- One linear layer at a node and an output column: row times column, plus the bias. -/
def affine {n K : Nat} (x : (⟨2, ![n, K]⟩ : Shape).Idx → EReal) (w : (⟨2, ![K, 32]⟩ : Shape).Idx → EReal)
    (b : (⟨2, ![1, 32]⟩ : Shape).Idx → EReal) (p : Fin n) (q : Fin 32) : EReal :=
  (∑ k : Fin K, x (ix2 p k) * w (ix2 k q)) + b (ix2 (0 : Fin 1) q)

/-- The encoded features: the two layers side by side, clamped at zero. -/
def encode (x : S100000x32.Idx → EReal) (e : S100000x128.Idx → EReal) (fw : S32x32.Idx → EReal) (fb : S1x32.Idx → EReal)
    (cw : S128x32.Idx → EReal) (cb : S1x32.Idx → EReal) : S100000x64.Idx → EReal :=
  fun i => max (if h : (i 1).val < 32 then affine x fw fb (i 0) ⟨(i 1).val, h⟩
      else affine e cw cb (i 0) ⟨(i 1).val - 32, by have := idx2_lt1 i; omega⟩) (Ideal.ofBits .f32 0x00000000#32)

/-- The six arrays the region reads, at their literal types. -/
abbrev xIn (c : Dev nD) : S100000x32.Idx → EReal := V c main_arg0
abbrev eIn (c : Dev nD) : S100000x128.Idx → EReal := V c main_arg1
abbrev fwIn (c : Dev nD) : S32x32.Idx → EReal := V c main_arg3
abbrev fbIn (c : Dev nD) : S1x32.Idx → EReal := V c main_v28
abbrev cwIn (c : Dev nD) : S128x32.Idx → EReal := V c main_arg5
abbrev cbIn (c : Dev nD) : S1x32.Idx → EReal := V c main_v29

theorem zero_off : (![0, 0] : Fin 2 → Nat) = fun _ => 0 := funext fun a => by fin_cases a <;> rfl

/-- The two products of a block, at an entry. -/
theorem features_product (x0 : FVec Ideal S10000x32 .f32) (w0 : FVec Ideal S32x32 .f32) (p : Fin 10000) (q : Fin 32) :
    matmul (F := Ideal) (φ₁ := .f32) (φ₂ := .f32) dot_S10000x32_S32x32_S10000x32_1_0_0_1_n_n none x0 w0
        (constant (F := Ideal) S10000x32 .f32 0x00000000#32) (ix2 p q)
      = ∑ k : Fin 32, x0 (ix2 p k) * w0 (ix2 k q) :=
  PlainDot.matmul_zero_apply 10000 32 32 none x0 w0 (ix2 p q)
theorem embeddings_product (x1 : FVec Ideal S10000x128 .f32) (w1 : FVec Ideal S128x32 .f32) (p : Fin 10000) (q : Fin 32) :
    matmul (F := Ideal) (φ₁ := .f32) (φ₂ := .f32) dot_S10000x128_S128x32_S10000x32_1_0_0_1_n_n none x1 w1
        (constant (F := Ideal) S10000x32 .f32 0x00000000#32) (ix2 p q)
      = ∑ k : Fin 128, x1 (ix2 p k) * w1 (ix2 k q) :=
  PlainDot.matmul_zero_apply 10000 128 32 none x1 w1 (ix2 p q)

/-- One block's result at an entry. -/
theorem block_apply (x0 : Vec Ideal S10000x32 .f32) (w0 : Vec Ideal S32x32 .f32) (b0 : Vec Ideal S1x32 .f32)
    (x1 : Vec Ideal S10000x128 .f32) (w1 : Vec Ideal S128x32 .f32) (b1 : Vec Ideal S1x32 .f32) (j : S10000x64.Idx) :
    k0_pay1 x0 w0 b0 x1 w1 b1 j
      = max (if h : (j 1).val < 32 then affine x0 w0 b0 (j 0) ⟨(j 1).val, h⟩
          else affine x1 w1 b1 (j 0) ⟨(j 1).val - 32, by have := idx2_lt1 j; omega⟩) (Ideal.ofBits .f32 0x00000000#32) := by
  obtain ⟨p, q, rfl⟩ : ∃ (p : Fin 10000) (q : Fin 64), j = ix2 p q := ⟨j 0, j 1, eq_ix2 j⟩
  unfold k0_pay1
  simp only [shapeCast_self]
  rw [maximumf_apply, broadcast_apply]
  by_cases h : q.val < 32
  · rw [dif_pos (show ((ix2 p q : S10000x64.Idx) 1).val < 32 from h)]
    rw [SideBySide.apply_left (n := 10000) (a := 32) (b := 32) (c := 64) _ _ _ p q h, addf_apply, features_product,
      shapeCast_self, broadcastTo_1b_ab_apply b0 _ p ⟨q.val, h⟩]
    rfl
  · rw [dif_neg (show ¬ ((ix2 p q : S10000x64.Idx) 1).val < 32 from h)]
    rw [SideBySide.apply_right (n := 10000) (a := 32) (b := 32) (c := 64) _ _ _ p q (by omega) (by have := q.isLt; omega),
      addf_apply, embeddings_product, shapeCast_self, broadcastTo_1b_ab_apply b1 _ p ⟨q.val - 32, by have := q.isLt; omega⟩]
    rfl

/-- The index maps over the ten grid points: the row blocks move together, weights and bias rows stay. -/
theorem index_facts : ∀ t : Fin cfg0.N, win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row block is some point's. -/
theorem index_onto : ∀ q : Fin 10, ∃ t : Fin cfg0.N, win0_6.index t = ![q.val, 0] :=
  (by decide +kernel : ∀ q : Fin 10, ∃ t : Fin grid0.N, win0_6.index t = ![q.val, 0])

/-- One layer of a block, read through the blocks: the layer of the whole arrays at the block's place. -/
theorem affine_features (c : Dev nD) (t : Fin cfg0.N) (p : Fin 10000) (q : Fin 32) (P : Fin 100000)
    (hP : P.val = win0_6.index t (0 : Fin 2) * 10000 + p.val) :
    affine (iblk0 V c 0 t) (iblk0 V c 2 t) (iblk0 V c 3 t) p q = affine (xIn V c) (fwIn V c) (fbIn V c) P q := by
  obtain ⟨e0, e1, e2, e3, e4, e5, e6, e7, e8, e9, e10, e11, e12, e13⟩ := index_facts t
  unfold affine
  have hx : ∀ k : Fin 32, iblk0 V c 0 t (ix2 p k) = xIn V c (ix2 P k) := fun k => by
    show xIn V c (((cfg0.win 0).blk t).view.emb (ix2 p k)) = _
    congr 1
    funext a; apply Fin.ext
    match a with
    | ⟨0, _⟩ => show win0_0.index t (0 : Fin 2) * 10000 + 1 * p.val = P.val; omega
    | ⟨1, _⟩ => show win0_0.index t (1 : Fin 2) * 32 + 1 * k.val = k.val; omega
  have hw : ∀ k : Fin 32, iblk0 V c 2 t (ix2 k q) = fwIn V c (ix2 k q) := fun k => by
    show fwIn V c (((cfg0.win 2).blk t).view.emb (ix2 k q)) = _
    congr 1
    funext a; apply Fin.ext
    match a with
    | ⟨0, _⟩ => show win0_2.index t (0 : Fin 2) * 32 + 1 * k.val = k.val; omega
    | ⟨1, _⟩ => show win0_2.index t (1 : Fin 2) * 32 + 1 * q.val = q.val; omega
  have hb : iblk0 V c 3 t (ix2 (0 : Fin 1) q) = fbIn V c (ix2 (0 : Fin 1) q) := by
    show fbIn V c (((cfg0.win 3).blk t).view.emb (ix2 (0 : Fin 1) q)) = _
    congr 1
    funext a; apply Fin.ext
    match a with
    | ⟨0, _⟩ => show win0_3.index t (0 : Fin 2) * 1 + 1 * 0 = 0; omega
    | ⟨1, _⟩ => show win0_3.index t (1 : Fin 2) * 32 + 1 * q.val = q.val; omega
  rw [hb]
  exact congrArg (· + fbIn V c (ix2 (0 : Fin 1) q)) (Finset.sum_congr rfl fun k _ => by rw [hx k, hw k])

theorem affine_embeddings (c : Dev nD) (t : Fin cfg0.N) (p : Fin 10000) (q : Fin 32) (P : Fin 100000)
    (hP : P.val = win0_6.index t (0 : Fin 2) * 10000 + p.val) :
    affine (iblk0 V c 1 t) (iblk0 V c 4 t) (iblk0 V c 5 t) p q = affine (eIn V c) (cwIn V c) (cbIn V c) P q := by
  obtain ⟨e0, e1, e2, e3, e4, e5, e6, e7, e8, e9, e10, e11, e12, e13⟩ := index_facts t
  unfold affine
  have hx : ∀ k : Fin 128, iblk0 V c 1 t (ix2 p k) = eIn V c (ix2 P k) := fun k => by
    show eIn V c (((cfg0.win 1).blk t).view.emb (ix2 p k)) = _
    congr 1
    funext a; apply Fin.ext
    match a with
    | ⟨0, _⟩ => show win0_1.index t (0 : Fin 2) * 10000 + 1 * p.val = P.val; omega
    | ⟨1, _⟩ => show win0_1.index t (1 : Fin 2) * 128 + 1 * k.val = k.val; omega
  have hw : ∀ k : Fin 128, iblk0 V c 4 t (ix2 k q) = cwIn V c (ix2 k q) := fun k => by
    show cwIn V c (((cfg0.win 4).blk t).view.emb (ix2 k q)) = _
    congr 1
    funext a; apply Fin.ext
    match a with
    | ⟨0, _⟩ => show win0_4.index t (0 : Fin 2) * 128 + 1 * k.val = k.val; omega
    | ⟨1, _⟩ => show win0_4.index t (1 : Fin 2) * 32 + 1 * q.val = q.val; omega
  have hb : iblk0 V c 5 t (ix2 (0 : Fin 1) q) = cbIn V c (ix2 (0 : Fin 1) q) := by
    show cbIn V c (((cfg0.win 5).blk t).view.emb (ix2 (0 : Fin 1) q)) = _
    congr 1
    funext a; apply Fin.ext
    match a with
    | ⟨0, _⟩ => show win0_5.index t (0 : Fin 2) * 1 + 1 * 0 = 0; omega
    | ⟨1, _⟩ => show win0_5.index t (1 : Fin 2) * 32 + 1 * q.val = q.val; omega
  rw [hb]
  exact congrArg (· + cbIn V c (ix2 (0 : Fin 1) q)) (Finset.sum_congr rfl fun k _ => by rw [hx k, hw k])

/-- What point `t` writes back is block `t` of the whole encoding. -/
theorem flushed_eq (c : Dev nD) (t : Fin cfg0.N) :
    (dat0 V c).flushed 6 t
      = ((cfg0.win 6).blk t).view.read (Elt Ideal) (encode (xIn V c) (eIn V c) (fwIn V c) (fbIn V c) (cwIn V c) (cbIn V c)) := by
  show (cfg0.win 6).cut (grid0.coords t) ((dat0 V c).after 6 t) = _
  rw [after0_6]
  unfold out0_6
  rw [View.canon_unit_zero zero_off]
  simp only [View.ld_unit_zero (S := S10000x32) zero_off, View.ld_unit_zero (S := S10000x128) zero_off, View.ld_unit_zero (S := S32x32) zero_off,
    View.ld_unit_zero (S := S1x32) zero_off, View.ld_unit_zero (S := S128x32) zero_off]
  obtain ⟨e0, e1, e2, e3, e4, e5, e6, e7, e8, e9, e10, e11, e12, e13⟩ := index_facts t
  funext j
  show k0_pay1 (iblk0 V c 0 t) (iblk0 V c 2 t) (iblk0 V c 3 t) (iblk0 V c 1 t) (iblk0 V c 4 t) (iblk0 V c 5 t) j
    = encode (xIn V c) (eIn V c) (fwIn V c) (fbIn V c) (cwIn V c) (cbIn V c) (((cfg0.win 6).blk t).view.emb j)
  rw [block_apply]
  unfold encode
  have hj1 : (j 1).val < 64 := (j 1).isLt
  have hj0 : (j 0).val < 10000 := (j 0).isLt
  have hrow : ((((cfg0.win 6).blk t).view.emb j) 0).val = win0_6.index t (0 : Fin 2) * 10000 + (j 0).val := by
    show win0_6.index t (0 : Fin 2) * 10000 + 1 * (j 0).val = _; omega
  have hcol : ((((cfg0.win 6).blk t).view.emb j) 1).val = (j 1).val := by
    show win0_6.index t (1 : Fin 2) * 64 + 1 * (j 1).val = _; omega
  congr 1
  by_cases h : (j 1).val < 32
  · have h' : ((((cfg0.win 6).blk t).view.emb j) 1).val < 32 := by omega
    rw [dif_pos h, dif_pos h']
    have hq : (⟨((((cfg0.win 6).blk t).view.emb j) 1).val, h'⟩ : Fin 32) = ⟨(j 1).val, h⟩ := Fin.ext hcol
    rw [hq]
    exact affine_features V c t ⟨(j 0).val, hj0⟩ ⟨(j 1).val, h⟩ _ hrow
  · have h' : ¬ ((((cfg0.win 6).blk t).view.emb j) 1).val < 32 := by omega
    rw [dif_neg h, dif_neg h']
    have hq : (⟨((((cfg0.win 6).blk t).view.emb j) 1).val - 32, by omega⟩ : Fin 32) = ⟨(j 1).val - 32, by omega⟩ :=
      Fin.ext (by show ((((cfg0.win 6).blk t).view.emb j) 1).val - 32 = (j 1).val - 32; omega)
    rw [hq]
    exact affine_embeddings V c t ⟨(j 0).val, hj0⟩ ⟨(j 1).val - 32, by omega⟩ _ hrow

/-- An index of the output array is in point `t`'s block iff each coordinate is in the block's range. -/
theorem mem_block (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v30).slice (win0_6.rect t)).set ↔ _
  rw [View.set_slice_whole, Rect.mem_set_unit]
  exact Iff.rfl

/-- The ten row blocks cover the output array. -/
theorem covered (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := index_onto ⟨(i 0).val / 10000, by omega⟩
  have q0 : win0_6.index t (0 : Fin 2) = (i 0).val / 10000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- After the region the output array is the encoding of the six arrays the region found. -/
theorem array_eq (c : Dev nD) :
    (dat0 V c).arrAt 6 cfg0.N = encode (xIn V c) (eIn V c) (fwIn V c) (fbIn V c) (cwIn V c) (cbIn V c) :=
  (dat0 V c).arrAt_eq_of_cover 6 (encode (xIn V c) (eIn V c) (fwIn V c) (fbIn V c) (cwIn V c) (cbIn V c))
    (fun t _ => flushed_eq V c t) covered

end Cert.KernelIdeal.Encode

end
-- ==== Proof.Project1.lean ====
/-
  The first graph convolution's linear projection, read off the launch: region 1 multiplies the encoded node features
  (100000 rows of 64) by the 64×32 weight matrix, ten row blocks of 10000 at a time. Block `t` of the product depends only
  on block `t` of the rows and on the whole weight matrix, and entry `(r, c)` of a block is the sum over `k` of
  row `r` times column `c`; the ten blocks tile the array, so after the region the output array is the whole product
  `rowsTimes A B (p, c) = ∑ k, A (p, k) * B (k, c)` of the two arrays the region found on entry.
-/
import proofs.«105662_j34840774705776_1_alg».proof.Proof.Gen.KernelIdeal.Frame
import proofs.«105662_j34840774705776_1_alg».proof.Proof.LibPlainDot
import Idealize.ShloMosaic.Lib.Pipeline.Value
import Idealize.ShloMosaic.Lib.ValueIdx

noncomputable section

open scoped BigOperators

namespace Cert.KernelIdeal.Project1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Rows of `A` times columns of `B`, on the extended reals. -/
def rowsTimes (A : S100000x64.Idx → EReal) (B : S64x32.Idx → EReal) : S100000x32.Idx → EReal :=
  fun i => ∑ k : Fin 64, A (ix2 (i 0) k) * B (ix2 k (i 1))

/-- The two arrays the region reads, at their literal types: the encoded features and the weights. -/
abbrev rowsIn (c : Dev nD) : S100000x64.Idx → EReal := V c main_v30
abbrev weightsIn (c : Dev nD) : S64x32.Idx → EReal := V c main_arg7

theorem zero_off : (![0, 0] : Fin 2 → Nat) = fun _ => 0 := funext fun a => by fin_cases a <;> rfl

/-- One block's product at an entry: the row of the row block times the column of the weights. -/
theorem block_apply (x0 : Vec Ideal S10000x64 .f32) (x1 : Vec Ideal S64x32 .f32) (j : S10000x32.Idx) :
    k1_pay1 x0 x1 j = ∑ k : Fin 64, x0 (ix2 (j 0) k) * x1 (ix2 k (j 1)) := by
  unfold k1_pay1
  rw [shapeCast_self]
  exact PlainDot.matmul_zero_apply 10000 64 32 none x0 x1 j

/-- The index maps over the ten grid points: the row blocks of input and output move together, the weights stay. -/
theorem index_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem index_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the whole product. -/
theorem flushed_eq (c : Dev nD) (t : Fin cfg1.N) :
    (dat1 V c).flushed 2 t = ((cfg1.win 2).blk t).view.read (Elt Ideal) (rowsTimes (rowsIn V c) (weightsIn V c)) := by
  show (cfg1.win 2).cut (grid1.coords t) ((dat1 V c).after 2 t) = _
  rw [after1_2]
  unfold out1_2
  rw [View.canon_unit_zero zero_off]
  simp only [View.ld_unit_zero (S := S10000x64) zero_off, View.ld_unit_zero (S := S64x32) zero_off]
  obtain ⟨e0, e1, e2, e3, e4, e5⟩ := index_facts t
  funext j
  show k1_pay1 (iblk1 V c 0 t) (iblk1 V c 1 t) j = rowsTimes (rowsIn V c) (weightsIn V c) (((cfg1.win 2).blk t).view.emb j)
  rw [block_apply]
  unfold rowsTimes
  refine Finset.sum_congr rfl fun k _ => ?_
  show rowsIn V c (((cfg1.win 0).blk t).view.emb (ix2 (j 0) k)) * weightsIn V c (((cfg1.win 1).blk t).view.emb (ix2 k (j 1))) = _
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 64 + 1 * k.val = k.val; omega
    | ⟨1, _⟩ => show win1_1.index t (1 : Fin 2) * 32 + 1 * (j 1).val = win1_2.index t (1 : Fin 2) * 32 + 1 * (j 1).val; omega
  rw [h0, h1]
  rfl

/-- An index of the output array is in point `t`'s block iff each coordinate is in the block's range. -/
theorem mem_block (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v31).slice (win1_2.rect t)).set ↔ _
  rw [View.set_slice_whole, Rect.mem_set_unit]
  exact Iff.rfl

/-- The ten row blocks cover the output array. -/
theorem covered (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 32 ≤ (i 1).val ∧ (i 1).val < win1_2.index t (1 : Fin 2) * 32 + 32; omega

/-- After the region the output array is the whole product of the arrays the region found. -/
theorem array_eq (c : Dev nD) : (dat1 V c).arrAt 2 cfg1.N = rowsTimes (rowsIn V c) (weightsIn V c) :=
  (dat1 V c).arrAt_eq_of_cover 2 (rowsTimes (rowsIn V c) (weightsIn V c)) (fun t _ => flushed_eq V c t) covered

end Cert.KernelIdeal.Project1

end
-- ==== Proof.Project2.lean ====
/-
  The second graph convolution's linear projection, read off the launch: region 3 multiplies the hidden node features after the first convolution
  (100000 rows of 32) by the 32×20 weight matrix, ten row blocks of 10000 at a time. Block `t` of the product depends only
  on block `t` of the rows and on the whole weight matrix, and entry `(r, c)` of a block is the sum over `k` of
  row `r` times column `c`; the ten blocks tile the array, so after the region the output array is the whole product
  `rowsTimes A B (p, c) = ∑ k, A (p, k) * B (k, c)` of the two arrays the region found on entry.
-/
import proofs.«105662_j34840774705776_1_alg».proof.Proof.Gen.KernelIdeal.Frame
import proofs.«105662_j34840774705776_1_alg».proof.Proof.LibPlainDot
import Idealize.ShloMosaic.Lib.Pipeline.Value
import Idealize.ShloMosaic.Lib.ValueIdx

noncomputable section

open scoped BigOperators

namespace Cert.KernelIdeal.Project2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Rows of `A` times columns of `B`, on the extended reals. -/
def rowsTimes (A : S100000x32.Idx → EReal) (B : S32x20.Idx → EReal) : S100000x20.Idx → EReal :=
  fun i => ∑ k : Fin 32, A (ix2 (i 0) k) * B (ix2 k (i 1))

/-- The two arrays the region reads, at their literal types: the encoded features and the weights. -/
abbrev rowsIn (c : Dev nD) : S100000x32.Idx → EReal := V c main_v46
abbrev weightsIn (c : Dev nD) : S32x20.Idx → EReal := V c main_arg9

theorem zero_off : (![0, 0] : Fin 2 → Nat) = fun _ => 0 := funext fun a => by fin_cases a <;> rfl

/-- One block's product at an entry: the row of the row block times the column of the weights. -/
theorem block_apply (x0 : Vec Ideal S10000x32 .f32) (x1 : Vec Ideal S32x20 .f32) (j : S10000x20.Idx) :
    k3_pay1 x0 x1 j = ∑ k : Fin 32, x0 (ix2 (j 0) k) * x1 (ix2 k (j 1)) := by
  unfold k3_pay1
  rw [shapeCast_self]
  exact PlainDot.matmul_zero_apply 10000 32 20 none x0 x1 j

/-- The index maps over the ten grid points: the row blocks of input and output move together, the weights stay. -/
theorem index_facts : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem index_onto : ∀ q : Fin 10, ∃ t : Fin cfg3.N, win3_2.index t = ![q.val, 0] :=
  (by decide +kernel : ∀ q : Fin 10, ∃ t : Fin grid3.N, win3_2.index t = ![q.val, 0])

/-- What point `t` writes back is block `t` of the whole product. -/
theorem flushed_eq (c : Dev nD) (t : Fin cfg3.N) :
    (dat3 V c).flushed 2 t = ((cfg3.win 2).blk t).view.read (Elt Ideal) (rowsTimes (rowsIn V c) (weightsIn V c)) := by
  show (cfg3.win 2).cut (grid3.coords t) ((dat3 V c).after 2 t) = _
  rw [after3_2]
  unfold out3_2
  rw [View.canon_unit_zero zero_off]
  simp only [View.ld_unit_zero (S := S10000x32) zero_off, View.ld_unit_zero (S := S32x20) zero_off]
  obtain ⟨e0, e1, e2, e3, e4, e5⟩ := index_facts t
  funext j
  show k3_pay1 (iblk3 V c 0 t) (iblk3 V c 1 t) j = rowsTimes (rowsIn V c) (weightsIn V c) (((cfg3.win 2).blk t).view.emb j)
  rw [block_apply]
  unfold rowsTimes
  refine Finset.sum_congr rfl fun k _ => ?_
  show rowsIn V c (((cfg3.win 0).blk t).view.emb (ix2 (j 0) k)) * weightsIn V c (((cfg3.win 1).blk t).view.emb (ix2 k (j 1))) = _
  have h0 : ((cfg3.win 0).blk t).view.emb (ix2 (j 0) k) = ix2 ((((cfg3.win 2).blk t).view.emb j) 0) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * k.val = k.val; omega
  have h1 : ((cfg3.win 1).blk t).view.emb (ix2 k (j 1)) = ix2 k ((((cfg3.win 2).blk t).view.emb j) 1) := by
    funext a; apply Fin.ext
    match a with
    | ⟨0, _⟩ => show win3_1.index t (0 : Fin 2) * 32 + 1 * k.val = k.val; omega
    | ⟨1, _⟩ => show win3_1.index t (1 : Fin 2) * 20 + 1 * (j 1).val = win3_2.index t (1 : Fin 2) * 20 + 1 * (j 1).val; omega
  rw [h0, h1]
  rfl

/-- An index of the output array is in point `t`'s block iff each coordinate is in the block's range. -/
theorem mem_block (t : Fin cfg3.N) (i : S100000x20.Idx) :
    i ∈ ((cfg3.win 2).blk t).view.set ↔ ∀ a : Fin 2, win3_2.index t a * S10000x20.size a ≤ (i a).val ∧ (i a).val < win3_2.index t a * S10000x20.size a + S10000x20.size a := by
  show i ∈ ((View.whole main_v47).slice (win3_2.rect t)).set ↔ _
  rw [View.set_slice_whole, Rect.mem_set_unit]
  exact Iff.rfl

/-- The ten row blocks cover the output array. -/
theorem covered (i : S100000x20.Idx) : ∃ t : Fin cfg3.N, (cfg3.win 2).flush t = true ∧ i ∈ ((cfg3.win 2).blk t).view.set := by
  have hi0 : (i 0).val < 100000 := (i 0).isLt
  have hi1 : (i 1).val < 20 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 20 ≤ (i 1).val ∧ (i 1).val < win3_2.index t (1 : Fin 2) * 20 + 20; omega

/-- After the region the output array is the whole product of the arrays the region found. -/
theorem array_eq (c : Dev nD) : (dat3 V c).arrAt 2 cfg3.N = rowsTimes (rowsIn V c) (weightsIn V c) :=
  (dat3 V c).arrAt_eq_of_cover 2 (rowsTimes (rowsIn V c) (weightsIn V c)) (fun t _ => flushed_eq V c t) covered

end Cert.KernelIdeal.Project2

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Combine1.lean ====
/-
  The first graph convolution's last step, read off the launch: region 2 takes, ten row blocks of 10000 at a time, the
  aggregated messages, the projected features, the column of squared inverse-root degrees and the bias row, and leaves
  `max ((agg + lin · d) + b, 0)`: the neighbours' sum, plus the node's own projected features weighted by its self-loop
  coefficient, plus the bias, clamped at zero. Entry `(p, q)` of the result depends on the entries `(p, q)` of the two
  arrays, on row `p` of the column and on entry `q` of the bias row only, so block `t` of the result is computed from
  blocks `t`; the ten blocks tile the array.
-/
import proofs.«105662_j34840774705776_1_alg».proof.Proof.Gen.KernelIdeal.Frame
import proofs.«105662_j34840774705776_1_alg».proof.Proof.LibKeepdims
import Idealize.ShloMosaic.Lib.ValueLayout
import Idealize.ShloMosaic.Lib.Pipeline.Value
import Idealize.ShloMosaic.Lib.ValueIdx

noncomputable section

open scoped BigOperators

namespace Cert.KernelIdeal.Combine1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Neighbours' sum plus self-loop term plus bias, clamped at zero, entry by entry. -/
def combine (agg lin : S100000x32.Idx → EReal) (dcol : S100000x1.Idx → EReal) (brow : S1x32.Idx → EReal) : S100000x32.Idx → EReal :=
  fun i => max ((agg i + lin i * dcol (ix2 (i 0) (0 : Fin 1))) + brow (ix2 (0 : Fin 1) (i 1))) (Ideal.ofBits .f32 0x00000000#32)

/-- The four arrays the region reads, at their literal types. -/
abbrev aggIn (c : Dev nD) : S100000x32.Idx → EReal := V c main_v44
abbrev linIn (c : Dev nD) : S100000x32.Idx → EReal := V c main_v31
abbrev dcolIn (c : Dev nD) : S100000x1.Idx → EReal := V c main_v27
abbrev browIn (c : Dev nD) : S1x32.Idx → EReal := V c main_v45

theorem zero_off : (![0, 0] : Fin 2 → Nat) = fun _ => 0 := funext fun a => by fin_cases a <;> rfl

/-- One block's result at an entry. -/
theorem block_apply (x0 x1 : Vec Ideal S10000x32 .f32) (x2 : Vec Ideal S10000x1 .f32) (x3 : Vec Ideal S1x32 .f32) (j : S10000x32.Idx) :
    k2_pay1 x0 x1 x2 x3 j
      = max ((x0 j + x1 j * x2 (ix2 (j 0) (0 : Fin 1))) + x3 (ix2 (0 : Fin 1) (j 1))) (Ideal.ofBits .f32 0x00000000#32) := by
  obtain ⟨p, q, rfl⟩ : ∃ (p : Fin 10000) (q : Fin 32), j = ix2 p q := ⟨j 0, j 1, eq_ix2 j⟩
  unfold k2_pay1
  simp only [shapeCast_self]
  rw [maximumf_apply, addf_apply, addf_apply, mulf_apply, broadcast_apply,
    Keepdims.broadcastTo_a1_ab_apply x2 _ p q, broadcastTo_1b_ab_apply x3 _ p q]
  rfl

/-- The index maps over the ten grid points: the row blocks move together, the bias row stays. -/
theorem index_facts : ∀ t : Fin cfg2.N, win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 9 :=
  (by decide +kernel : ∀ t : Fin grid2.N, _)

/-- Every row block is some point's. -/
theorem index_onto : ∀ q : Fin 10, ∃ t : Fin cfg2.N, win2_4.index t = ![q.val, 0] :=
  (by decide +kernel : ∀ q : Fin 10, ∃ t : Fin grid2.N, win2_4.index t = ![q.val, 0])

/-- What point `t` writes back is block `t` of the whole result. -/
theorem flushed_eq (c : Dev nD) (t : Fin cfg2.N) :
    (dat2 V c).flushed 4 t
      = ((cfg2.win 4).blk t).view.read (Elt Ideal) (combine (aggIn V c) (linIn V c) (dcolIn V c) (browIn V c)) := by
  show (cfg2.win 4).cut (grid2.coords t) ((dat2 V c).after 4 t) = _
  rw [after2_4]
  unfold out2_4
  rw [View.canon_unit_zero zero_off]
  simp only [View.ld_unit_zero (S := S10000x32) zero_off, View.ld_unit_zero (S := S10000x1) zero_off, View.ld_unit_zero (S := S1x32) zero_off]
  obtain ⟨e0, e1, e2, e3, e4, e5, e6, e7, e8, e9⟩ := index_facts t
  funext j
  show k2_pay1 (iblk2 V c 0 t) (iblk2 V c 1 t) (iblk2 V c 2 t) (iblk2 V c 3 t) j
    = combine (aggIn V c) (linIn V c) (dcolIn V c) (browIn V c) (((cfg2.win 4).blk t).view.emb j)
  rw [block_apply]
  unfold combine
  show max ((aggIn V c (((cfg2.win 0).blk t).view.emb j) + linIn V c (((cfg2.win 1).blk t).view.emb j)
      * dcolIn V c (((cfg2.win 2).blk t).view.emb (ix2 (j 0) (0 : Fin 1)))) + browIn V c (((cfg2.win 3).blk t).view.emb (ix2 (0 : Fin 1) (j 1)))) _ = _
  have h0 : ((cfg2.win 0).blk t).view.emb j = ((cfg2.win 4).blk t).view.emb j := by
    funext a; apply Fin.ext
    match a with
    | ⟨0, _⟩ => show win2_0.index t (0 : Fin 2) * 10000 + 1 * (j 0).val = win2_4.index t (0 : Fin 2) * 10000 + 1 * (j 0).val; omega
    | ⟨1, _⟩ => show win2_0.index t (1 : Fin 2) * 32 + 1 * (j 1).val = win2_4.index t (1 : Fin 2) * 32 + 1 * (j 1).val; omega
  have h1 : ((cfg2.win 1).blk t).view.emb j = ((cfg2.win 4).blk t).view.emb j := by
    funext a; apply Fin.ext
    match a with
    | ⟨0, _⟩ => show win2_1.index t (0 : Fin 2) * 10000 + 1 * (j 0).val = win2_4.index t (0 : Fin 2) * 10000 + 1 * (j 0).val; omega
    | ⟨1, _⟩ => show win2_1.index t (1 : Fin 2) * 32 + 1 * (j 1).val = win2_4.index t (1 : Fin 2) * 32 + 1 * (j 1).val; omega
  have h2 : ((cfg2.win 2).blk t).view.emb (ix2 (j 0) (0 : Fin 1)) = ix2 ((((cfg2.win 4).blk t).view.emb j) 0) (0 : Fin 1) := by
    funext a; apply Fin.ext
    match a with
    | ⟨0, _⟩ => show win2_2.index t (0 : Fin 2) * 10000 + 1 * (j 0).val = win2_4.index t (0 : Fin 2) * 10000 + 1 * (j 0).val; omega
    | ⟨1, _⟩ => show win2_2.index t (1 : Fin 2) * 1 + 1 * 0 = 0; omega
  have h3 : ((cfg2.win 3).blk t).view.emb (ix2 (0 : Fin 1) (j 1)) = ix2 (0 : Fin 1) ((((cfg2.win 4).blk t).view.emb j) 1) := by
    funext a; apply Fin.ext
    match a with
    | ⟨0, _⟩ => show win2_3.index t (0 : Fin 2) * 1 + 1 * 0 = 0; omega
    | ⟨1, _⟩ => show win2_3.index t (1 : Fin 2) * 32 + 1 * (j 1).val = win2_4.index t (1 : Fin 2) * 32 + 1 * (j 1).val; omega
  rw [h0, h1, h2, h3]
  rfl

/-- An index of the output array is in point `t`'s block iff each coordinate is in the block's range. -/
theorem mem_block (t : Fin cfg2.N) (i : S100000x32.Idx) :
    i ∈ ((cfg2.win 4).blk t).view.set ↔ ∀ a : Fin 2, win2_4.index t a * S10000x32.size a ≤ (i a).val ∧ (i a).val < win2_4.index t a * S10000x32.size a + S10000x32.size a := by
  show i ∈ ((View.whole main_v46).slice (win2_4.rect t)).set ↔ _
  rw [View.set_slice_whole, Rect.mem_set_unit]
  exact Iff.rfl

/-- The ten row blocks cover the output array. -/
theorem covered (i : S100000x32.Idx) : ∃ t : Fin cfg2.N, (cfg2.win 4).flush t = true ∧ i ∈ ((cfg2.win 4).blk t).view.set := by
  have hi0 : (i 0).val < 100000 := (i 0).isLt
  have hi1 : (i 1).val < 32 := (i 1).isLt
  obtain ⟨t, ht⟩ := index_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 32 ≤ (i 1).val ∧ (i 1).val < win2_4.index t (1 : Fin 2) * 32 + 32; omega

/-- After the region the output array is `combine` of the four arrays the region found. -/
theorem array_eq (c : Dev nD) : (dat2 V c).arrAt 4 cfg2.N = combine (aggIn V c) (linIn V c) (dcolIn V c) (browIn V c) :=
  (dat2 V c).arrAt_eq_of_cover 4 (combine (aggIn V c) (linIn V c) (dcolIn V c) (browIn V c)) (fun t _ => flushed_eq V c t) covered

end Cert.KernelIdeal.Combine1

end
-- ==== Proof.Combine2.lean ====
/-
  The second graph convolution's last step, read off the launch: region 4 takes, ten row blocks of 10000 at a time, the
  aggregated messages, the projected features, the column of squared inverse-root degrees and the bias row, and leaves
  `(agg + lin · d) + b`: the neighbours' sum, plus the node's own projected features weighted by its self-loop
  coefficient, plus the bias; the last layer is not clamped. Entry `(p, q)` of the result depends on the entries `(p, q)` of the two
  arrays, on row `p` of the column and on entry `q` of the bias row only, so block `t` of the result is computed from
  blocks `t`; the ten blocks tile the array.
-/
import proofs.«105662_j34840774705776_1_alg».proof.Proof.Gen.KernelIdeal.Frame
import proofs.«105662_j34840774705776_1_alg».proof.Proof.LibKeepdims
import Idealize.ShloMosaic.Lib.ValueLayout
import Idealize.ShloMosaic.Lib.Pipeline.Value
import Idealize.ShloMosaic.Lib.ValueIdx

noncomputable section

open scoped BigOperators

namespace Cert.KernelIdeal.Combine2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Neighbours' sum plus self-loop term plus bias, entry by entry. -/
def combine (agg lin : S100000x20.Idx → EReal) (dcol : S100000x1.Idx → EReal) (brow : S1x20.Idx → EReal) : S100000x20.Idx → EReal :=
  fun i => (agg i + lin i * dcol (ix2 (i 0) (0 : Fin 1))) + brow (ix2 (0 : Fin 1) (i 1))

/-- The four arrays the region reads, at their literal types. -/
abbrev aggIn (c : Dev nD) : S100000x20.Idx → EReal := V c main_v60
abbrev linIn (c : Dev nD) : S100000x20.Idx → EReal := V c main_v47
abbrev dcolIn (c : Dev nD) : S100000x1.Idx → EReal := V c main_v27
abbrev browIn (c : Dev nD) : S1x20.Idx → EReal := V c main_v61

theorem zero_off : (![0, 0] : Fin 2 → Nat) = fun _ => 0 := funext fun a => by fin_cases a <;> rfl

/-- One block's result at an entry. -/
theorem block_apply (x0 x1 : Vec Ideal S10000x20 .f32) (x2 : Vec Ideal S10000x1 .f32) (x3 : Vec Ideal S1x20 .f32) (j : S10000x20.Idx) :
    k4_pay1 x0 x1 x2 x3 j
      = (x0 j + x1 j * x2 (ix2 (j 0) (0 : Fin 1))) + x3 (ix2 (0 : Fin 1) (j 1)) := by
  obtain ⟨p, q, rfl⟩ : ∃ (p : Fin 10000) (q : Fin 20), j = ix2 p q := ⟨j 0, j 1, eq_ix2 j⟩
  unfold k4_pay1
  simp only [shapeCast_self]
  rw [addf_apply, addf_apply, mulf_apply, Keepdims.broadcastTo_a1_ab_apply x2 _ p q, broadcastTo_1b_ab_apply x3 _ p q]

/-- The index maps over the ten grid points: the row blocks move together, the bias row stays. -/
theorem index_facts : ∀ t : Fin cfg4.N, win4_0.index t (0 : Fin 2) = win4_4.index t (0 : Fin 2) ∧ win4_0.index t (1 : Fin 2) = 0
    ∧ win4_1.index t (0 : Fin 2) = win4_4.index t (0 : Fin 2) ∧ win4_1.index t (1 : Fin 2) = 0
    ∧ win4_2.index t (0 : Fin 2) = win4_4.index t (0 : Fin 2) ∧ win4_2.index t (1 : Fin 2) = 0
    ∧ win4_3.index t (0 : Fin 2) = 0 ∧ win4_3.index t (1 : Fin 2) = 0
    ∧ win4_4.index t (1 : Fin 2) = 0 ∧ win4_4.index t (0 : Fin 2) ≤ 9 :=
  (by decide +kernel : ∀ t : Fin grid4.N, _)

/-- Every row block is some point's. -/
theorem index_onto : ∀ q : Fin 10, ∃ t : Fin cfg4.N, win4_4.index t = ![q.val, 0] :=
  (by decide +kernel : ∀ q : Fin 10, ∃ t : Fin grid4.N, win4_4.index t = ![q.val, 0])

/-- What point `t` writes back is block `t` of the whole result. -/
theorem flushed_eq (c : Dev nD) (t : Fin cfg4.N) :
    (dat4 V c).flushed 4 t
      = ((cfg4.win 4).blk t).view.read (Elt Ideal) (combine (aggIn V c) (linIn V c) (dcolIn V c) (browIn V c)) := by
  show (cfg4.win 4).cut (grid4.coords t) ((dat4 V c).after 4 t) = _
  rw [after4_4]
  unfold out4_4
  rw [View.canon_unit_zero zero_off]
  simp only [View.ld_unit_zero (S := S10000x20) zero_off, View.ld_unit_zero (S := S10000x1) zero_off, View.ld_unit_zero (S := S1x20) zero_off]
  obtain ⟨e0, e1, e2, e3, e4, e5, e6, e7, e8, e9⟩ := index_facts t
  funext j
  show k4_pay1 (iblk4 V c 0 t) (iblk4 V c 1 t) (iblk4 V c 2 t) (iblk4 V c 3 t) j
    = combine (aggIn V c) (linIn V c) (dcolIn V c) (browIn V c) (((cfg4.win 4).blk t).view.emb j)
  rw [block_apply]
  unfold combine
  show (aggIn V c (((cfg4.win 0).blk t).view.emb j) + linIn V c (((cfg4.win 1).blk t).view.emb j)
      * dcolIn V c (((cfg4.win 2).blk t).view.emb (ix2 (j 0) (0 : Fin 1)))) + browIn V c (((cfg4.win 3).blk t).view.emb (ix2 (0 : Fin 1) (j 1))) = _
  have h0 : ((cfg4.win 0).blk t).view.emb j = ((cfg4.win 4).blk t).view.emb j := by
    funext a; apply Fin.ext
    match a with
    | ⟨0, _⟩ => show win4_0.index t (0 : Fin 2) * 10000 + 1 * (j 0).val = win4_4.index t (0 : Fin 2) * 10000 + 1 * (j 0).val; omega
    | ⟨1, _⟩ => show win4_0.index t (1 : Fin 2) * 20 + 1 * (j 1).val = win4_4.index t (1 : Fin 2) * 20 + 1 * (j 1).val; omega
  have h1 : ((cfg4.win 1).blk t).view.emb j = ((cfg4.win 4).blk t).view.emb j := by
    funext a; apply Fin.ext
    match a with
    | ⟨0, _⟩ => show win4_1.index t (0 : Fin 2) * 10000 + 1 * (j 0).val = win4_4.index t (0 : Fin 2) * 10000 + 1 * (j 0).val; omega
    | ⟨1, _⟩ => show win4_1.index t (1 : Fin 2) * 20 + 1 * (j 1).val = win4_4.index t (1 : Fin 2) * 20 + 1 * (j 1).val; omega
  have h2 : ((cfg4.win 2).blk t).view.emb (ix2 (j 0) (0 : Fin 1)) = ix2 ((((cfg4.win 4).blk t).view.emb j) 0) (0 : Fin 1) := by
    funext a; apply Fin.ext
    match a with
    | ⟨0, _⟩ => show win4_2.index t (0 : Fin 2) * 10000 + 1 * (j 0).val = win4_4.index t (0 : Fin 2) * 10000 + 1 * (j 0).val; omega
    | ⟨1, _⟩ => show win4_2.index t (1 : Fin 2) * 1 + 1 * 0 = 0; omega
  have h3 : ((cfg4.win 3).blk t).view.emb (ix2 (0 : Fin 1) (j 1)) = ix2 (0 : Fin 1) ((((cfg4.win 4).blk t).view.emb j) 1) := by
    funext a; apply Fin.ext
    match a with
    | ⟨0, _⟩ => show win4_3.index t (0 : Fin 2) * 1 + 1 * 0 = 0; omega
    | ⟨1, _⟩ => show win4_3.index t (1 : Fin 2) * 20 + 1 * (j 1).val = win4_4.index t (1 : Fin 2) * 20 + 1 * (j 1).val; omega
  rw [h0, h1, h2, h3]
  rfl

/-- An index of the output array is in point `t`'s block iff each coordinate is in the block's range. -/
theorem mem_block (t : Fin cfg4.N) (i : S100000x20.Idx) :
    i ∈ ((cfg4.win 4).blk t).view.set ↔ ∀ a : Fin 2, win4_4.index t a * S10000x20.size a ≤ (i a).val ∧ (i a).val < win4_4.index t a * S10000x20.size a + S10000x20.size a := by
  show i ∈ ((View.whole main_v62).slice (win4_4.rect t)).set ↔ _
  rw [View.set_slice_whole, Rect.mem_set_unit]
  exact Iff.rfl

/-- The ten row blocks cover the output array. -/
theorem covered (i : S100000x20.Idx) : ∃ t : Fin cfg4.N, (cfg4.win 4).flush t = true ∧ i ∈ ((cfg4.win 4).blk t).view.set := by
  have hi0 : (i 0).val < 100000 := (i 0).isLt
  have hi1 : (i 1).val < 20 := (i 1).isLt
  obtain ⟨t, ht⟩ := index_onto ⟨(i 0).val / 10000, by omega⟩
  have q0 : win4_4.index t (0 : Fin 2) = (i 0).val / 10000 := congrFun ht 0
  have q1 : win4_4.index t (1 : Fin 2) = 0 := congrFun ht 1
  refine ⟨t, flush4_4 t, ?_⟩
  rw [mem_block]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 20 ≤ (i 1).val ∧ (i 1).val < win4_4.index t (1 : Fin 2) * 20 + 20; omega

/-- After the region the output array is `combine` of the four arrays the region found. -/
theorem array_eq (c : Dev nD) : (dat4 V c).arrAt 4 cfg4.N = combine (aggIn V c) (linIn V c) (dcolIn V c) (browIn V c) :=
  (dat4 V c).arrAt_eq_of_cover 4 (combine (aggIn V c) (linIn V c) (dcolIn V c) (browIn V c)) (fun t _ => flushed_eq V c t) covered

end Cert.KernelIdeal.Combine2

end
-- ==== Proof.RefStages.lean ====
/-
  The reference, stage by stage, as the same whole-array functions the launch's regions compute.

  The reference's encoder is `relu` of two affine layers set side by side; each graph convolution projects the node
  features by a weight matrix (a `dot_general`), gathers and scatters along the edges on the host, and ends in
  `(agg + lin · d) + b`, clamped at zero after the first layer. Read entry by entry, every dense stage is the function of
  its operands that the corresponding region leaves: the `dot_general`s are the same sums over the shared axis, the two
  broadcasts of the squared inverse-root degrees (to a column, then along the rows) read the vector at the row, the two
  broadcasts of a bias (to a row, then down the rows) read it at the column.
-/
import proofs.«105662_j34840774705776_1_alg».proof.Proof.Gen.ReferenceIdeal.Read
import proofs.«105662_j34840774705776_1_alg».proof.Proof.Encode
import proofs.«105662_j34840774705776_1_alg».proof.Proof.Project1
import proofs.«105662_j34840774705776_1_alg».proof.Proof.Project2
import proofs.«105662_j34840774705776_1_alg».proof.Proof.Combine1
import proofs.«105662_j34840774705776_1_alg».proof.Proof.Combine2
import Idealize.ShloMosaic.Lib.ValueLayout
import proofs.«105662_j34840774705776_1_alg».proof.Proof.LibSideBySide
import proofs.«105662_j34840774705776_1_alg».proof.Proof.LibKeepdims

noncomputable section

open scoped BigOperators

namespace Cert.RefStages

open Idealize.ShloMosaic Idealize.ShloMosaic.ValueIdx Cert.ReferenceIdeal.Read

variable (x0 : (⟨Cert.ReferenceIdeal.S100000x32, .f32⟩ : BufTy).Contents (Elt Ideal)) (x1 : (⟨Cert.ReferenceIdeal.S100000x128, .f32⟩ : BufTy).Contents (Elt Ideal)) (x2 : (⟨Cert.ReferenceIdeal.S2x3200000, .i32⟩ : BufTy).Contents (Elt Ideal))
  (x3 : (⟨Cert.ReferenceIdeal.S32x32, .f32⟩ : BufTy).Contents (Elt Ideal)) (x4 : (⟨Cert.ReferenceIdeal.S32, .f32⟩ : BufTy).Contents (Elt Ideal)) (x5 : (⟨Cert.ReferenceIdeal.S128x32, .f32⟩ : BufTy).Contents (Elt Ideal)) (x6 : (⟨Cert.ReferenceIdeal.S32, .f32⟩ : BufTy).Contents (Elt Ideal))
  (x7 : (⟨Cert.ReferenceIdeal.S64x32, .f32⟩ : BufTy).Contents (Elt Ideal)) (x8 : (⟨Cert.ReferenceIdeal.S32, .f32⟩ : BufTy).Contents (Elt Ideal)) (x9 : (⟨Cert.ReferenceIdeal.S32x20, .f32⟩ : BufTy).Contents (Elt Ideal)) (x10 : (⟨Cert.ReferenceIdeal.S20, .f32⟩ : BufTy).Contents (Elt Ideal))

/-- The first projection is rows times columns of the encoded features and the weights. -/
theorem projection1 :
    val_main_v14 (F := Ideal) x0 x1 x3 x4 x5 x6 x7
      = Cert.KernelIdeal.Project1.rowsTimes (val_main_v13 (F := Ideal) x0 x1 x3 x4 x5 x6) x7 := by
  funext i
  rw [val_main_v14_apply]
  unfold Cert.KernelIdeal.Project1.rowsTimes
  refine Finset.sum_congr rfl fun k _ => ?_
  have el : lidx_main_v14 i k = ix2 (i 0) k := funext fun a => by match a with | ⟨0, _⟩ => rfl | ⟨1, _⟩ => rfl
  have er : ridx_main_v14 i k = ix2 k (i 1) := funext fun a => by match a with | ⟨0, _⟩ => rfl | ⟨1, _⟩ => rfl
  rw [el, er]
  rfl

/-- The second projection likewise, of the hidden features. -/
theorem projection2 :
    val_main_v59 (F := Ideal) x0 x1 x2 x3 x4 x5 x6 x7 x8 x9
      = Cert.KernelIdeal.Project2.rowsTimes (val_main_v58 (F := Ideal) x0 x1 x2 x3 x4 x5 x6 x7 x8) x9 := by
  funext i
  rw [val_main_v59_apply]
  unfold Cert.KernelIdeal.Project2.rowsTimes
  refine Finset.sum_congr rfl fun k _ => ?_
  have el : lidx_main_v59 i k = ix2 (i 0) k := funext fun a => by match a with | ⟨0, _⟩ => rfl | ⟨1, _⟩ => rfl
  have er : ridx_main_v59 i k = ix2 k (i 1) := funext fun a => by match a with | ⟨0, _⟩ => rfl | ⟨1, _⟩ => rfl
  rw [el, er]
  rfl

/-- The first convolution's last stage: neighbours' sum plus self-loop term plus bias, clamped at zero. -/
theorem combination1 :
    val_main_v58 (F := Ideal) x0 x1 x2 x3 x4 x5 x6 x7 x8
      = Cert.KernelIdeal.Combine1.combine (val_main_v49 (F := Ideal) x0 x1 x2 x3 x4 x5 x6 x7)
          (val_main_v14 (F := Ideal) x0 x1 x3 x4 x5 x6 x7)
          (shapeCast _ (val_main_v50 (F := Ideal) x2) Cert.KernelIdeal.Gen.shapeCasts_S100000_S100000x1)
          (shapeCast _ x8 Cert.KernelIdeal.Gen.shapeCasts_S32_S1x32) := by
  funext i
  obtain ⟨p, q, rfl⟩ : ∃ (p : Fin 100000) (q : Fin 32), i = ix2 p q := ⟨i 0, i 1, eq_ix2 i⟩
  rw [val_main_v58_apply, val_main_v57_apply, val_main_v54_apply, val_main_v53_apply, val_main_v52_apply, val_main_v51_apply,
    val_main_v56_apply, val_main_v55_apply, val_main_call1_v0_apply, val_main_call1_cst_apply]
  unfold Cert.KernelIdeal.Combine1.combine
  rw [Keepdims.shapeCast_a_a1_apply _ _ p (0 : Fin 1), shapeCast_a_1a_apply _ _ (0 : Fin 1) q]
  have e1 : idx_main_v51 (idx_main_v52 (ix2 p q)) = ix1 p := funext fun a => by match a with | ⟨0, _⟩ => rfl
  have e2 : idx_main_v55 (idx_main_v56 (ix2 p q)) = ix1 q := funext fun a => by match a with | ⟨0, _⟩ => rfl
  rw [e1, e2]
  rfl

/-- The second convolution's last stage: the same without the clamp. -/
theorem combination2 :
    val_main_v102 (F := Ideal) x0 x1 x2 x3 x4 x5 x6 x7 x8 x9 x10
      = Cert.KernelIdeal.Combine2.combine (val_main_v94 (F := Ideal) x0 x1 x2 x3 x4 x5 x6 x7 x8 x9)
          (val_main_v59 (F := Ideal) x0 x1 x2 x3 x4 x5 x6 x7 x8 x9)
          (shapeCast _ (val_main_v95 (F := Ideal) x2) Cert.KernelIdeal.Gen.shapeCasts_S100000_S100000x1)
          (shapeCast _ x10 Cert.KernelIdeal.Gen.shapeCasts_S20_S1x20) := by
  funext i
  obtain ⟨p, q, rfl⟩ : ∃ (p : Fin 100000) (q : Fin 20), i = ix2 p q := ⟨i 0, i 1, eq_ix2 i⟩
  rw [val_main_v102_apply, val_main_v99_apply, val_main_v98_apply, val_main_v97_apply, val_main_v96_apply,
    val_main_v101_apply, val_main_v100_apply]
  unfold Cert.KernelIdeal.Combine2.combine
  rw [Keepdims.shapeCast_a_a1_apply _ _ p (0 : Fin 1), shapeCast_a_1a_apply _ _ (0 : Fin 1) q]
  have e1 : idx_main_v96 (idx_main_v97 (ix2 p q)) = ix1 p := funext fun a => by match a with | ⟨0, _⟩ => rfl
  have e2 : idx_main_v100 (idx_main_v101 (ix2 p q)) = ix1 q := funext fun a => by match a with | ⟨0, _⟩ => rfl
  rw [e1, e2]
  rfl

/-- The reference's encoder is the launch's encoding of the same arrays, the two biases as rows. -/
theorem encoding :
    val_main_v13 (F := Ideal) x0 x1 x3 x4 x5 x6
      = Cert.KernelIdeal.Encode.encode x0 x1 x3 (shapeCast _ x4 Cert.KernelIdeal.Gen.shapeCasts_S32_S1x32) x5
          (shapeCast _ x6 Cert.KernelIdeal.Gen.shapeCasts_S32_S1x32) := by
  funext i
  obtain ⟨p, q, rfl⟩ : ∃ (p : Fin 100000) (q : Fin 64), i = ix2 p q := ⟨i 0, i 1, eq_ix2 i⟩
  rw [val_main_v13_apply, val_main_call0_v0_apply, val_main_call0_cst_apply]
  unfold Cert.KernelIdeal.Encode.encode val_main_v12
  refine congrArg₂ max ?_ rfl
  by_cases h : q.val < 32
  · rw [dif_pos (show ((ix2 p q : Cert.KernelIdeal.S100000x64.Idx) 1).val < 32 from h)]
    rw [SideBySide.apply_left (n := 100000) (a := 32) (b := 32) (c := 64) _ _ _ p q h,
      val_main_v7_apply, val_main_v4_apply, val_main_v6_apply, val_main_v5_apply]
    unfold Cert.KernelIdeal.Encode.affine
    rw [shapeCast_a_1a_apply _ _ (0 : Fin 1) ⟨q.val, h⟩]
    have eb : idx_main_v5 (idx_main_v6 (ix2 p ⟨q.val, h⟩)) = ix1 ⟨q.val, h⟩ := funext fun a => by match a with | ⟨0, _⟩ => rfl
    rw [eb]
    refine congrArg (· + x4 (ix1 ⟨q.val, h⟩)) (Finset.sum_congr rfl fun k _ => ?_)
    have el : lidx_main_v4 (ix2 p ⟨q.val, h⟩) k = ix2 p k := funext fun a => by match a with | ⟨0, _⟩ => rfl | ⟨1, _⟩ => rfl
    have er : ridx_main_v4 (ix2 p ⟨q.val, h⟩) k = ix2 k ⟨q.val, h⟩ := funext fun a => by match a with | ⟨0, _⟩ => rfl | ⟨1, _⟩ => rfl
    rw [el, er]
  · have hb : q.val - 32 < 32 := by have := q.isLt; omega
    rw [dif_neg (show ¬ ((ix2 p q : Cert.KernelIdeal.S100000x64.Idx) 1).val < 32 from h)]
    rw [SideBySide.apply_right (n := 100000) (a := 32) (b := 32) (c := 64) _ _ _ p q (by omega) hb,
      val_main_v11_apply, val_main_v8_apply, val_main_v10_apply, val_main_v9_apply]
    unfold Cert.KernelIdeal.Encode.affine
    rw [shapeCast_a_1a_apply _ _ (0 : Fin 1) ⟨q.val - 32, hb⟩]
    have eb : idx_main_v9 (idx_main_v10 (ix2 p ⟨q.val - 32, hb⟩)) = ix1 ⟨q.val - 32, hb⟩ := funext fun a => by match a with | ⟨0, _⟩ => rfl
    rw [eb]
    refine congrArg (· + x6 (ix1 ⟨q.val - 32, hb⟩)) (Finset.sum_congr rfl fun k _ => ?_)
    have el : lidx_main_v8 (ix2 p ⟨q.val - 32, hb⟩) k = ix2 p k := funext fun a => by match a with | ⟨0, _⟩ => rfl | ⟨1, _⟩ => rfl
    have er : ridx_main_v8 (ix2 p ⟨q.val - 32, hb⟩) k = ix2 k ⟨q.val - 32, hb⟩ := funext fun a => by match a with | ⟨0, _⟩ => rfl | ⟨1, _⟩ => rfl
    rw [el, er]

end Cert.RefStages

end
-- ==== Proof.Boundaries.lean ====
/-
  The launch's run, boundary by boundary, against the reference's stages.

  @main is eight segments: a host stretch (degrees, their inverse roots, the edge normalisation), the encoder and the first
  projection, a host stretch (gather along the sources, scale, scatter-add to the targets), the first combination and the
  second projection, the same host stretch at width 20, and the last combination. What each segment reads is either an
  argument, or a buffer an earlier host stretch wrote and nothing since has touched, or an earlier region's output; read
  back through the boundaries, each is the value the reference computes for it: the host operations are the same
  functions of the same operands on both sides, and each region's output is the function of its inputs that the
  reference's corresponding stage is. (The reference computes the degree normalisation once per convolution; the two
  computations are the same term.)
-/
import proofs.«105662_j34840774705776_1_alg».proof.Proof.Gen.KernelIdeal.Frame
import proofs.«105662_j34840774705776_1_alg».proof.Proof.RefStages
import Idealize.ShloMosaic.Lib.StableHlo.Run

noncomputable section

namespace Cert.KernelIdeal.Boundaries

open Cert.KernelIdeal Cert.KernelIdeal.Gen Idealize.ShloMosaic Idealize.ShloMosaic.TcCoe Idealize.SL.Sem
open Idealize.ShloMosaic.StableHlo Cert.ReferenceIdeal.Read

variable (m : (ℓ : Loc nD τ sig) → Buf (Elt Ideal) ℓ) (ρ : Dev nD → PrngReg)

/-- The argument arrays as launched. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)

/-! ## After the first host stretch -/

theorem W1_arg0 (c : Dev nD) : W1 m ρ c (Proc.devRef .tc main_arg0) = a0 m c := by
  show StableHlo.after hostOps0 (W0 m ρ c) (Proc.devRef .tc main_arg0) = _
  after_results_simp <;> rfl
theorem W1_arg1 (c : Dev nD) : W1 m ρ c (Proc.devRef .tc main_arg1) = a1 m c := by
  show StableHlo.after hostOps0 (W0 m ρ c) (Proc.devRef .tc main_arg1) = _
  after_results_simp <;> rfl
theorem W1_arg3 (c : Dev nD) : W1 m ρ c (Proc.devRef .tc main_arg3) = a3 m c := by
  show StableHlo.after hostOps0 (W0 m ρ c) (Proc.devRef .tc main_arg3) = _
  after_results_simp <;> rfl
theorem W1_arg5 (c : Dev nD) : W1 m ρ c (Proc.devRef .tc main_arg5) = a5 m c := by
  show StableHlo.after hostOps0 (W0 m ρ c) (Proc.devRef .tc main_arg5) = _
  after_results_simp <;> rfl
theorem W1_arg7 (c : Dev nD) : W1 m ρ c (Proc.devRef .tc main_arg7) = a7 m c := by
  show StableHlo.after hostOps0 (W0 m ρ c) (Proc.devRef .tc main_arg7) = _
  after_results_simp <;> rfl
theorem W1_arg8 (c : Dev nD) : W1 m ρ c (Proc.devRef .tc main_arg8) = a8 m c := by
  show StableHlo.after hostOps0 (W0 m ρ c) (Proc.devRef .tc main_arg8) = _
  after_results_simp <;> rfl
theorem W1_arg9 (c : Dev nD) : W1 m ρ c (Proc.devRef .tc main_arg9) = a9 m c := by
  show StableHlo.after hostOps0 (W0 m ρ c) (Proc.devRef .tc main_arg9) = _
  after_results_simp <;> rfl
theorem W1_arg10 (c : Dev nD) : W1 m ρ c (Proc.devRef .tc main_arg10) = a10 m c := by
  show StableHlo.after hostOps0 (W0 m ρ c) (Proc.devRef .tc main_arg10) = _
  after_results_simp <;> rfl

/-- Sources, targets, edge normalisation and squared inverse-root degrees are the reference's. -/
theorem W1_v1 (c : Dev nD) : W1 m ρ c (Proc.devRef .tc main_v1) = val_main_v1 (F := Ideal) (a2 m c) := by
  show StableHlo.after hostOps0 (W0 m ρ c) (Proc.devRef .tc main_v1) = _
  after_results_simp <;> rfl
theorem W1_v3 (c : Dev nD) : W1 m ρ c (Proc.devRef .tc main_v3) = val_main_v3 (F := Ideal) (a2 m c) := by
  show StableHlo.after hostOps0 (W0 m ρ c) (Proc.devRef .tc main_v3) = _
  after_results_simp <;> rfl
theorem W1_v25 (c : Dev nD) : W1 m ρ c (Proc.devRef .tc main_v25) = val_main_v36 (F := Ideal) (a2 m c) := by
  show StableHlo.after hostOps0 (W0 m ρ c) (Proc.devRef .tc main_v25) = _
  after_results_simp <;> rfl
theorem W1_v27 (c : Dev nD) :
    W1 m ρ c (Proc.devRef .tc main_v27) = shapeCast _ (val_main_v50 (F := Ideal) (a2 m c)) shapeCasts_S100000_S100000x1 := by
  show StableHlo.after hostOps0 (W0 m ρ c) (Proc.devRef .tc main_v27) = _
  after_results_simp <;> rfl
theorem W1_v28 (c : Dev nD) : W1 m ρ c (Proc.devRef .tc main_v28) = shapeCast _ (a4 m c) shapeCasts_S32_S1x32 := by
  show StableHlo.after hostOps0 (W0 m ρ c) (Proc.devRef .tc main_v28) = _
  after_results_simp <;> rfl
theorem W1_v29 (c : Dev nD) : W1 m ρ c (Proc.devRef .tc main_v29) = shapeCast _ (a6 m c) shapeCasts_S32_S1x32 := by
  show StableHlo.after hostOps0 (W0 m ρ c) (Proc.devRef .tc main_v29) = _
  after_results_simp <;> rfl

/-! ## Buffers the regions and the later host stretches leave alone -/

theorem W3_back (c : Dev nD) (b : Ref sig .tc) (h0 : ∀ w, Pipeline.arrRef spec0 w ≠ b) (h1 : ∀ w, Pipeline.arrRef spec1 w ≠ b) :
    W3 m ρ c (Proc.devRef .tc b) = W1 m ρ c (Proc.devRef .tc b) :=
  (W3_of_ne m ρ c b h1).trans (W2_of_ne m ρ c b h0)

theorem keep2_v1 (c : Dev nD) : W4 m ρ c (Proc.devRef .tc main_v1) = W3 m ρ c (Proc.devRef .tc main_v1) := by
  show StableHlo.after hostOps2 (W3 m ρ c) (Proc.devRef .tc main_v1) = _
  after_results_simp <;> rfl
theorem keep2_v3 (c : Dev nD) : W4 m ρ c (Proc.devRef .tc main_v3) = W3 m ρ c (Proc.devRef .tc main_v3) := by
  show StableHlo.after hostOps2 (W3 m ρ c) (Proc.devRef .tc main_v3) = _
  after_results_simp <;> rfl
theorem keep2_v25 (c : Dev nD) : W4 m ρ c (Proc.devRef .tc main_v25) = W3 m ρ c (Proc.devRef .tc main_v25) := by
  show StableHlo.after hostOps2 (W3 m ρ c) (Proc.devRef .tc main_v25) = _
  after_results_simp <;> rfl
theorem keep2_v27 (c : Dev nD) : W4 m ρ c (Proc.devRef .tc main_v27) = W3 m ρ c (Proc.devRef .tc main_v27) := by
  show StableHlo.after hostOps2 (W3 m ρ c) (Proc.devRef .tc main_v27) = _
  after_results_simp <;> rfl
theorem keep2_arg9 (c : Dev nD) : W4 m ρ c (Proc.devRef .tc main_arg9) = W3 m ρ c (Proc.devRef .tc main_arg9) := by
  show StableHlo.after hostOps2 (W3 m ρ c) (Proc.devRef .tc main_arg9) = _
  after_results_simp <;> rfl
theorem keep2_arg10 (c : Dev nD) : W4 m ρ c (Proc.devRef .tc main_arg10) = W3 m ρ c (Proc.devRef .tc main_arg10) := by
  show StableHlo.after hostOps2 (W3 m ρ c) (Proc.devRef .tc main_arg10) = _
  after_results_simp <;> rfl
theorem keep2_v31 (c : Dev nD) : W4 m ρ c (Proc.devRef .tc main_v31) = W3 m ρ c (Proc.devRef .tc main_v31) := by
  show StableHlo.after hostOps2 (W3 m ρ c) (Proc.devRef .tc main_v31) = _
  after_results_simp <;> rfl
theorem keep4_v47 (c : Dev nD) : W7 m ρ c (Proc.devRef .tc main_v47) = W6 m ρ c (Proc.devRef .tc main_v47) := by
  show StableHlo.after hostOps4 (W6 m ρ c) (Proc.devRef .tc main_v47) = _
  after_results_simp <;> rfl
theorem keep4_v27 (c : Dev nD) : W7 m ρ c (Proc.devRef .tc main_v27) = W6 m ρ c (Proc.devRef .tc main_v27) := by
  show StableHlo.after hostOps4 (W6 m ρ c) (Proc.devRef .tc main_v27) = _
  after_results_simp <;> rfl

theorem W6_back (c : Dev nD) (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (hk : W4 m ρ c (Proc.devRef .tc b) = W3 m ρ c (Proc.devRef .tc b)) :
    W6 m ρ c (Proc.devRef .tc b) = W1 m ρ c (Proc.devRef .tc b) :=
  (W6_of_ne m ρ c b h3).trans ((W5_of_ne m ρ c b h2).trans (hk.trans (W3_back m ρ c b h0 h1)))

/-- The column of squared inverse-root degrees is an input window of the first combination, which leaves it as found. -/
theorem W6_v27 (c : Dev nD) : W6 m ρ c (Proc.devRef .tc main_v27) = W1 m ρ c (Proc.devRef .tc main_v27) :=
  (W6_of_ne m ρ c main_v27 (by decide)).trans
    (((W5_arr m ρ c 2).trans (((dat2 (V4 m ρ) c).arrAt_in 2 rfl _).trans (A_eq2 (V4 m ρ) c 2))).trans
      ((keep2_v27 m ρ c).trans (W3_back m ρ c main_v27 (by decide) (by decide))))

/-! ## The encoder and the first projection -/

theorem stage0 (c : Dev nD) :
    V2 m ρ c main_v30 = val_main_v13 (F := Ideal) (a0 m c) (a1 m c) (a3 m c) (a4 m c) (a5 m c) (a6 m c) := by
  rw [RefStages.encoding]
  refine (W2_arr m ρ c 6).trans ?_
  rw [Encode.array_eq (V1 m ρ) c]
  have e0 : Encode.xIn (V1 m ρ) c = a0 m c := W1_arg0 m ρ c
  have e1 : Encode.eIn (V1 m ρ) c = a1 m c := W1_arg1 m ρ c
  have e2 : Encode.fwIn (V1 m ρ) c = a3 m c := W1_arg3 m ρ c
  have e3 : Encode.fbIn (V1 m ρ) c = shapeCast _ (a4 m c) shapeCasts_S32_S1x32 := W1_v28 m ρ c
  have e4 : Encode.cwIn (V1 m ρ) c = a5 m c := W1_arg5 m ρ c
  have e5 : Encode.cbIn (V1 m ρ) c = shapeCast _ (a6 m c) shapeCasts_S32_S1x32 := W1_v29 m ρ c
  rw [e0, e1, e2, e3, e4, e5]

theorem stage1 (c : Dev nD) :
    V3 m ρ c main_v31 = val_main_v14 (F := Ideal) (a0 m c) (a1 m c) (a3 m c) (a4 m c) (a5 m c) (a6 m c) (a7 m c) := by
  rw [RefStages.projection1, ← stage0 m ρ c]
  refine (W3_arr m ρ c 2).trans ?_
  rw [Project1.array_eq (V2 m ρ) c]
  have e : Project1.weightsIn (V2 m ρ) c = a7 m c := (W2_of_ne m ρ c main_arg7 (by decide)).trans (W1_arg7 m ρ c)
  rw [e]

/-! ## The first convolution's edges and its last stage, the second projection -/

theorem edges1 (c : Dev nD) :
    V4 m ρ c main_v44 = val_main_v49 (F := Ideal) (a0 m c) (a1 m c) (a2 m c) (a3 m c) (a4 m c) (a5 m c) (a6 m c) (a7 m c) := by
  have h31 : W3 m ρ c (Proc.devRef .tc main_v31) = val_main_v14 (F := Ideal) (a0 m c) (a1 m c) (a3 m c) (a4 m c) (a5 m c) (a6 m c) (a7 m c) := stage1 m ρ c
  have h1 := (W3_back m ρ c main_v1 (by decide) (by decide)).trans (W1_v1 m ρ c)
  have h3 := (W3_back m ρ c main_v3 (by decide) (by decide)).trans (W1_v3 m ρ c)
  have h25 := (W3_back m ρ c main_v25 (by decide) (by decide)).trans (W1_v25 m ρ c)
  show StableHlo.after hostOps2 (W3 m ρ c) (Proc.devRef .tc main_v44) = _
  after_results_simp
  rw [h31, h1, h3, h25]
  rfl

theorem stage2 (c : Dev nD) :
    V5 m ρ c main_v46 = val_main_v58 (F := Ideal) (a0 m c) (a1 m c) (a2 m c) (a3 m c) (a4 m c) (a5 m c) (a6 m c) (a7 m c) (a8 m c) := by
  rw [RefStages.combination1, ← edges1 m ρ c, ← stage1 m ρ c]
  refine (W5_arr m ρ c 4).trans ?_
  rw [Combine1.array_eq (V4 m ρ) c]
  have e1 : Combine1.linIn (V4 m ρ) c = V3 m ρ c main_v31 := keep2_v31 m ρ c
  have e2 : Combine1.dcolIn (V4 m ρ) c = shapeCast _ (val_main_v50 (F := Ideal) (a2 m c)) shapeCasts_S100000_S100000x1 :=
    (keep2_v27 m ρ c).trans ((W3_back m ρ c main_v27 (by decide) (by decide)).trans (W1_v27 m ρ c))
  have e3 : Combine1.browIn (V4 m ρ) c = shapeCast _ (a8 m c) shapeCasts_S32_S1x32 := by
    have h8 := (W3_back m ρ c main_arg8 (by decide) (by decide)).trans (W1_arg8 m ρ c)
    show StableHlo.after hostOps2 (W3 m ρ c) (Proc.devRef .tc main_v45) = _
    after_results_simp
    rw [h8]
    rfl
  rw [e1, e2, e3]

theorem stage3 (c : Dev nD) :
    V6 m ρ c main_v47 = val_main_v59 (F := Ideal) (a0 m c) (a1 m c) (a2 m c) (a3 m c) (a4 m c) (a5 m c) (a6 m c) (a7 m c) (a8 m c) (a9 m c) := by
  rw [RefStages.projection2, ← stage2 m ρ c]
  refine (W6_arr m ρ c 2).trans ?_
  rw [Project2.array_eq (V5 m ρ) c]
  have e : Project2.weightsIn (V5 m ρ) c = a9 m c :=
    (W5_of_ne m ρ c main_arg9 (by decide)).trans ((keep2_arg9 m ρ c).trans ((W3_back m ρ c main_arg9 (by decide) (by decide)).trans (W1_arg9 m ρ c)))
  rw [e]

/-! ## The second convolution's edges and the result -/

theorem edges2 (c : Dev nD) :
    V7 m ρ c main_v60 = val_main_v94 (F := Ideal) (a0 m c) (a1 m c) (a2 m c) (a3 m c) (a4 m c) (a5 m c) (a6 m c) (a7 m c) (a8 m c) (a9 m c) := by
  have h47 : W6 m ρ c (Proc.devRef .tc main_v47) = val_main_v59 (F := Ideal) (a0 m c) (a1 m c) (a2 m c) (a3 m c) (a4 m c) (a5 m c) (a6 m c) (a7 m c) (a8 m c) (a9 m c) := stage3 m ρ c
  have h1 := (W6_back m ρ c main_v1 (by decide) (by decide) (by decide) (by decide) (keep2_v1 m ρ c)).trans (W1_v1 m ρ c)
  have h3 := (W6_back m ρ c main_v3 (by decide) (by decide) (by decide) (by decide) (keep2_v3 m ρ c)).trans (W1_v3 m ρ c)
  have h25 := (W6_back m ρ c main_v25 (by decide) (by decide) (by decide) (by decide) (keep2_v25 m ρ c)).trans (W1_v25 m ρ c)
  show StableHlo.after hostOps4 (W6 m ρ c) (Proc.devRef .tc main_v60) = _
  after_results_simp
  rw [h47, h1, h3, h25]
  rfl

/-- The result buffer after the last region is the reference's result stage of the launched arguments. -/
theorem result (c : Dev nD) :
    W8 m ρ c (Proc.devRef .tc main_v62) = val_main_v102 (F := Ideal) (a0 m c) (a1 m c) (a2 m c) (a3 m c) (a4 m c) (a5 m c) (a6 m c) (a7 m c) (a8 m c) (a9 m c) (a10 m c) := by
  rw [RefStages.combination2, ← edges2 m ρ c, ← stage3 m ρ c]
  refine (W8_arr m ρ c 4).trans ?_
  rw [Combine2.array_eq (V7 m ρ) c]
  have e1 : Combine2.linIn (V7 m ρ) c = V6 m ρ c main_v47 := keep4_v47 m ρ c
  have e2 : Combine2.dcolIn (V7 m ρ) c = shapeCast _ (val_main_v95 (F := Ideal) (a2 m c)) shapeCasts_S100000_S100000x1 :=
    (keep4_v27 m ρ c).trans ((W6_v27 m ρ c).trans (W1_v27 m ρ c))
  have e3 : Combine2.browIn (V7 m ρ) c = shapeCast _ (a10 m c) shapeCasts_S20_S1x20 := by
    have h10 := (W6_back m ρ c main_arg10 (by decide) (by decide) (by decide) (by decide) (keep2_arg10 m ρ c)).trans (W1_arg10 m ρ c)
    show StableHlo.after hostOps4 (W6 m ρ c) (Proc.devRef .tc main_v61) = _
    after_results_simp
    rw [h10]
    rfl
  rw [e1, e2, e3]

end Cert.KernelIdeal.Boundaries

end
-- ==== Proof.lean ====
/-
  A two-layer graph convolutional network over 100000 nodes and 3200000 edges, as five node-tiled kernel regions among
  host gather / scatter-add stretches, against the plain jnp reference: equal at the ideal values.

  Both programs compute, with `d = (1 + in-degree)^(-1/2)` and `norm e = d (src e) · d (dst e)`:
  `h0 = relu ([x · fcW + fcb | cnn · cnnW + cnnb])`, then twice `h ↦ (Σ_{e : dst e = ·} norm e · (h W) (src e) + (h W) · d² ) + b`,
  with a `relu` between the two layers. The host operations (slices of the edge list, degree count, `rsqrt`, the negative-index
  wrap, gathers, scatter-adds) are the same functions of the same operands in both programs, in the same order; the dense
  stages are the kernel's regions on one side and `dot_general` / broadcast / add / maximum on the other. At the ideal
  instance a region's `tpu.matmul` into a zero accumulator and the host's `dot_general` are the same sum over the shared
  axis, the biases and the squared inverse-root degrees are read at the same entries whichever way they were laid out
  (a reshape to a row or column on the kernel's side, a `broadcast_in_dim` on the reference's), and sums and products are
  taken in the same association, so no law of the extended reals beyond `0 + s = s` is used and the finiteness
  precondition is never opened.

  The three frames are the generated ones (the reference's is its generated run with the result dropped); the ideal pass
  rewrote nothing, so `preserves` is `True`. For `algebraic` the kernel's run is the launch theorem called once more with
  the result buffer kept in the post (Proof/ResultRun.lean), the result read back boundary by boundary to the reference's
  result stage of the launched arguments (Proof/Boundaries.lean over the per-region modules Encode, Project1, Project2,
  Combine1, Combine2 and the reference's stages in RefStages), and the reference's run its generated one.
-/
import proofs.«105662_j34840774705776_1_alg».proof.Defs
import proofs.«105662_j34840774705776_1_alg».proof.Proof.Gen.Kernel
import proofs.«105662_j34840774705776_1_alg».proof.Proof.Gen.Kernel.Skeleton
import proofs.«105662_j34840774705776_1_alg».proof.Proof.Gen.Kernel.Launch
import proofs.«105662_j34840774705776_1_alg».proof.Proof.Gen.Kernel.Points
import proofs.«105662_j34840774705776_1_alg».proof.Proof.Gen.Kernel.Frame
import proofs.«105662_j34840774705776_1_alg».proof.Proof.Gen.KernelIdeal
import proofs.«105662_j34840774705776_1_alg».proof.Proof.Gen.KernelIdeal.Skeleton
import proofs.«105662_j34840774705776_1_alg».proof.Proof.Gen.KernelIdeal.Launch
import proofs.«105662_j34840774705776_1_alg».proof.Proof.Gen.KernelIdeal.Points
import proofs.«105662_j34840774705776_1_alg».proof.Proof.Gen.KernelIdeal.Frame
import proofs.«105662_j34840774705776_1_alg».proof.Proof.Gen.ReferenceIdeal
import proofs.«105662_j34840774705776_1_alg».proof.Proof.Gen.Pre_finite_inputs
import proofs.«105662_j34840774705776_1_alg».proof.Proof.Gen.ReferenceIdeal.Run
import proofs.«105662_j34840774705776_1_alg».proof.Proof.Gen.ReferenceIdeal.Read
import proofs.«105662_j34840774705776_1_alg».proof.Proof.ResultRun
import proofs.«105662_j34840774705776_1_alg».proof.Proof.Boundaries
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the reference's result stage of the (agreeing) argument arrays. -/
theorem algebraic : Cert.algebraic_KernelIdeal_ReferenceIdeal := by
  intro m ρ m' ρ' _ hagree
  refine ⟨fun c => Cert.KernelIdeal.Gen.W8 m ρ c (Proc.devRef .tc Cert.KernelIdeal.main_v62),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v102_eq, h0, h1, h2, h3, h4, h5, h6, h7, h8, h9, h10]
  exact (Cert.KernelIdeal.Boundaries.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
